-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v148)) (v2 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v148) = v1 c
          ∧ r.2.mem ((c.tc : Thread Cert.KernelIdeal.nD Cert.KernelIdeal.τ).loc Cert.KernelIdeal.main_v159) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v224) = v1 c
          ∧ r.2.mem ((c.tc : Thread Cert.ReferenceIdeal.nD Cert.ReferenceIdeal.τ).loc Cert.ReferenceIdeal.main_v235) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x64 : Shape := ⟨2, ![64, 64]⟩
abbrev S262144 : Shape := ⟨1, ![262144]⟩
abbrev S4096 : Shape := ⟨1, ![4096]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S262144 : S_.BroadcastsInDim S262144 (![] : Fin 0 → Fin S262144.rank)
  reducesTo_S262144_S_d0 : S262144.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S8192x64 .f32) (main_arg12 : FVec F S262144 .f32) (main_arg13 : FVec F S262144 .f32) (main_v48 : IVec S_ 1) (main_v49 : FVec F S8192x64 .f32) (main_v50 : FVec F S8192x64 .f32) : IVec S_ 1 :=
  let main_v51 : IVec S8192x64 1 := cmpf .olt main_v49 main_v50
  let main_c_19 : IVec S_ 1 := constantI S_ 1 1#1
  let main_v52 : IVec S_ 1 := (fun x v => Host.reduce IntOp.andi x v reducesTo_S8192x64_S_d0_1 h_S_) main_v51 main_c_19
  let main_v53 : IVec S_ 1 := andi main_v48 main_v52
  let main_v54 : FVec F S8192x64 .f32 := Host.absf main_arg11
  let main_cst_20 : FVec F S_ .f32 := constant S_ .f32 0x7F800000#32
  let main_v55 : FVec F S8192x64 .f32 := broadcastInDim S8192x64 ![] bcast_S_S8192x64 main_cst_20
  let main_v56 : IVec S8192x64 1 := cmpf .olt main_v54 main_v55
  let main_c_21 : IVec S_ 1 := constantI S_ 1 1#1
  let main_v57 : IVec S_ 1 := (fun x v => Host.reduce IntOp.andi x v reducesTo_S8192x64_S_d0_1 h_S_) main_v56 main_c_21
  let main_v58 : IVec S_ 1 := andi main_v53 main_v57
  let main_v59 : FVec F S262144 .f32 := Host.absf main_arg12
  let main_cst_22 : FVec F S_ .f32 := constant S_ .f32 0x7F800000#32
  let main_v60 : FVec F S262144 .f32 := broadcastInDim S262144 ![] bcast_S_S262144 main_cst_22
  let main_v61 : IVec S262144 1 := cmpf .olt main_v59 main_v60
  let main_c_23 : IVec S_ 1 := constantI S_ 1 1#1
  let main_v62 : IVec S_ 1 := (fun x v => Host.reduce IntOp.andi x v reducesTo_S262144_S_d0 h_S_) main_v61 main_c_23
  let main_v63 : IVec S_ 1 := andi main_v58 main_v62
  let main_v64 : FVec F S262144 .f32 := Host.absf main_arg13
  let main_cst_24 : FVec F S_ .f32 := constant S_ .f32 0x7F800000#32
  let main_v65 : FVec F S262144 .f32 := broadcastInDim S262144 ![] bcast_S_S262144 main_cst_24
  let main_v66 : IVec S262144 1 := cmpf .olt main_v64 main_v65
  let main_c_25 : IVec S_ 1 := constantI S_ 1 1#1
  let main_v67 : IVec S_ 1 := (fun x v => Host.reduce IntOp.andi x v reducesTo_S262144_S_d0 h_S_) main_v66 main_c_25
  fn_part4 (F := F) main_v63 main_v67

def fn_part2 {F : FTy → Type} [FloatOps F] (main_arg7 : FVec F S64x64 .f32) (main_arg8 : FVec F S8192x64 .f32) (main_arg9 : FVec F S8192x64 .f32) (main_arg10 : FVec F S8192x64 .f32) (main_arg11 : FVec F S8192x64 .f32) (main_arg12 : FVec F S262144 .f32) (main_arg13 : FVec F S262144 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S8192x64 .f32 := Host.absf main_arg8
  let main_cst_14 : FVec F S_ .f32 := constant S_ .f32 0x7F800000#32
  let main_v40 : FVec F S8192x64 .f32 := broadcastInDim S8192x64 ![] bcast_S_S8192x64 main_cst_14
  let main_v41 : IVec S8192x64 1 := cmpf .olt main_v39 main_v40
  let main_c_15 : IVec S_ 1 := constantI S_ 1 1#1
  let main_v42 : IVec S_ 1 := (fun x v => Host.reduce IntOp.andi x v reducesTo_S8192x64_S_d0_1 h_S_) main_v41 main_c_15
  let main_v43 : IVec S_ 1 := andi main_v38 main_v42
  let main_v44 : FVec F S8192x64 .f32 := Host.absf main_arg9
  let main_cst_16 : FVec F S_ .f32 := constant S_ .f32 0x7F800000#32
  let main_v45 : FVec F S8192x64 .f32 := broadcastInDim S8192x64 ![] bcast_S_S8192x64 main_cst_16
  let main_v46 : IVec S8192x64 1 := cmpf .olt main_v44 main_v45
  let main_c_17 : IVec S_ 1 := constantI S_ 1 1#1
  let main_v47 : IVec S_ 1 := (fun x v => Host.reduce IntOp.andi x v reducesTo_S8192x64_S_d0_1 h_S_) main_v46 main_c_17
  let main_v48 : IVec S_ 1 := andi main_v43 main_v47
  let main_v49 : FVec F S8192x64 .f32 := Host.absf main_arg10
  let main_cst_18 : FVec F S_ .f32 := constant S_ .f32 0x7F800000#32
  let main_v50 : FVec F S8192x64 .f32 := broadcastInDim S8192x64 ![] bcast_S_S8192x64 main_cst_18
  fn_part3 (F := F) main_arg11 main_arg12 main_arg13 main_v48 main_v49 main_v50

def fn_part1 {F : FTy → Type} [FloatOps F] (main_arg4 : FVec F S64x64 .f32) (main_arg5 : FVec F S64x64 .f32) (main_arg6 : FVec F S64x64 .f32) (main_arg7 : FVec F S64x64 .f32) (main_arg8 : FVec F S8192x64 .f32) (main_arg9 : FVec F S8192x64 .f32) (main_arg10 : FVec F S8192x64 .f32) (main_arg11 : FVec F S8192x64 .f32) (main_arg12 : FVec F S262144 .f32) (main_arg13 : FVec F S262144 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x64 .f32) (main_arg1 : FVec F S8192x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64x64 .f32) (main_arg8 : FVec F S8192x64 .f32) (main_arg9 : FVec F S8192x64 .f32) (main_arg10 : FVec F S8192x64 .f32) (main_arg11 : FVec F S8192x64 .f32) (main_arg12 : FVec F S262144 .f32) (main_arg13 : FVec F S262144 .f32) (main_arg14 : IVec S4096 32) (main_arg15 : IVec S4096 32) (main_arg16 : IVec S4096 32) (main_arg17 : IVec S4096 32) (main_arg18 : IVec S4096 32) (main_arg19 : IVec S4096 32) (main_arg20 : IVec S262144 32) (main_arg21 : IVec S262144 32) (main_arg22 : IVec S262144 32) (main_arg23 : IVec S262144 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x64 : Shape := ⟨2, ![8192, 64]⟩
abbrev S64x64 : Shape := ⟨2, ![64, 64]⟩
abbrev S262144 : Shape := ⟨1, ![262144]⟩
abbrev S4096 : Shape := ⟨1, ![4096]⟩
abbrev S262144x1 : Shape := ⟨2, ![262144, 1]⟩
abbrev S_ : Shape := ⟨0, ![]⟩
abbrev S262144x64 : Shape := ⟨2, ![262144, 64]⟩
abbrev S128x64 : Shape := ⟨2, ![128, 64]⟩
abbrev S128x8192 : Shape := ⟨2, ![128, 8192]⟩
abbrev S128 : Shape := ⟨1, ![128]⟩
abbrev S128x1 : Shape := ⟨2, ![128, 1]⟩
abbrev S8192x128 : Shape := ⟨2, ![8192, 128]⟩
abbrev S4096x1 : Shape := ⟨2, ![4096, 1]⟩
abbrev S4096x128 : Shape := ⟨2, ![4096, 128]⟩
abbrev S4096x64 : Shape := ⟨2, ![4096, 64]⟩
abbrev S4096x192 : Shape := ⟨2, ![4096, 192]⟩

abbrev nBuf : Space → Nat
  | .hbm => 220
  | .vmem => 12
  | .smem => 0
  | _ => 0

abbrev hbmTy0_0 (i : Nat) : BufTy := match i % 128 with
  | 0 => ⟨S8192x64, .f32⟩
  | 1 => ⟨S8192x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S8192x64, .f32⟩
  | 9 => ⟨S8192x64, .f32⟩
  | 10 => ⟨S8192x64, .f32⟩
  | 11 => ⟨S8192x64, .f32⟩
  | 12 => ⟨S262144, .f32⟩
  | 13 => ⟨S262144, .f32⟩
  | 14 => ⟨S4096, .i32⟩
  | 15 => ⟨S4096, .i32⟩
  | 16 => ⟨S4096, .i32⟩
  | 17 => ⟨S4096, .i32⟩
  | 18 => ⟨S4096, .i32⟩
  | 19 => ⟨S4096, .i32⟩
  | 20 => ⟨S262144, .i32⟩
  | 21 => ⟨S262144, .i32⟩
  | 22 => ⟨S262144, .i32⟩
  | 23 => ⟨S262144, .i32⟩
  | 24 => ⟨S262144x1, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144x64, .f32⟩
  | 34 => ⟨S262144x64, .f32⟩
  | 35 => ⟨S262144x64, .f32⟩
  | 36 => ⟨S_, .f32⟩
  | 37 => ⟨S8192x64, .f32⟩
  | 38 => ⟨S262144x1, .i32⟩
  | 39 => ⟨S8192x64, .f32⟩
  | 40 => ⟨S262144x1, .f32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x64, .f32⟩
  | 50 => ⟨S262144x64, .f32⟩
  | 51 => ⟨S262144x64, .f32⟩
  | 52 => ⟨S_, .f32⟩
  | 53 => ⟨S8192x64, .f32⟩
  | 54 => ⟨S262144x1, .i32⟩
  | 55 => ⟨S8192x64, .f32⟩
  | 56 => ⟨S262144x1, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x64, .f32⟩
  | 66 => ⟨S262144x64, .f32⟩
  | 67 => ⟨S262144x64, .f32⟩
  | 68 => ⟨S_, .f32⟩
  | 69 => ⟨S8192x64, .f32⟩
  | 70 => ⟨S262144x1, .i32⟩
  | 71 => ⟨S8192x64, .f32⟩
  | 72 => ⟨S262144x1, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x64, .f32⟩
  | 82 => ⟨S262144x64, .f32⟩
  | 83 => ⟨S262144x64, .f32⟩
  | 84 => ⟨S_, .f32⟩
  | 85 => ⟨S8192x64, .f32⟩
  | 86 => ⟨S262144x1, .i32⟩
  | 87 => ⟨S8192x64, .f32⟩
  | 88 => ⟨S8192x64, .f32⟩
  | 89 => ⟨S8192x64, .f32⟩
  | 90 => ⟨S8192x64, .f32⟩
  | 91 => ⟨S8192x64, .f32⟩
  | 92 => ⟨S8192x64, .f32⟩
  | 93 => ⟨S8192x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S8192x64, .f32⟩
  | 104 => ⟨S8192x128, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x128, .f32⟩
  | 114 => ⟨S8192x128, .f32⟩
  | 115 => ⟨S_, .i32⟩
  | 116 => ⟨S4096, .i32⟩
  | 117 => ⟨S4096, .i1⟩
  | 118 => ⟨S_, .i32⟩
  | 119 => ⟨S4096, .i32⟩
  | 120 => ⟨S4096, .i32⟩
  | 121 => ⟨S4096, .i32⟩
  | 122 => ⟨S4096x1, .i32⟩
  | 123 => ⟨S4096x128, .f32⟩
  | 124 => ⟨S8192x128, .f32⟩
  | 125 => ⟨S_, .i32⟩
  | 126 => ⟨S4096, .i32⟩
  | 127 => ⟨S4096, .i1⟩
  | _ => ⟨S8192x64, .f32⟩

abbrev hbmTy0_1 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S4096x128, .f32⟩
  | 6 => ⟨S8192x64, .f32⟩
  | 7 => ⟨S8192x64, .f32⟩
  | 8 => ⟨S8192x64, .f32⟩
  | 9 => ⟨S8192x64, .f32⟩
  | 10 => ⟨S8192x64, .f32⟩
  | 11 => ⟨S8192x64, .f32⟩
  | 12 => ⟨S8192x64, .f32⟩
  | 13 => ⟨S8192x64, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S4096x64, .f32⟩
  | 23 => ⟨S4096x192, .f32⟩
  | 24 => ⟨S4096x192, .f32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S4096x1, .i32⟩
  | 33 => ⟨S4096x64, .f32⟩
  | 34 => ⟨S4096x192, .f32⟩
  | 35 => ⟨S4096x192, .f32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096x64, .f32⟩
  | 45 => ⟨S4096x192, .f32⟩
  | 46 => ⟨S4096x192, .f32⟩
  | 47 => ⟨S4096x192, .f32⟩
  | 48 => ⟨S_, .f32⟩
  | 49 => ⟨S4096x192, .f32⟩
  | 50 => ⟨S4096x192, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x192, .f32⟩
  | 61 => ⟨S4096x192, .f32⟩
  | 62 => ⟨S4096x192, .f32⟩
  | 63 => ⟨S_, .f32⟩
  | 64 => ⟨S4096x192, .f32⟩
  | 65 => ⟨S4096x192, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x192, .f32⟩
  | 76 => ⟨S4096x192, .f32⟩
  | 77 => ⟨S4096x192, .f32⟩
  | 78 => ⟨S_, .f32⟩
  | 79 => ⟨S4096x192, .f32⟩
  | 80 => ⟨S4096x192, .f32⟩
  | 81 => ⟨S_, .f32⟩
  | 82 => ⟨S4096, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x192, .f32⟩
  | 91 => ⟨S4096x192, .f32⟩
  | _ => ⟨S8192x64, .f32⟩

abbrev hbmTy (i : Nat) : BufTy := match i / 128 with
  | 0 => hbmTy0_0 i
  | 1 => hbmTy0_1 i
  | _ => ⟨S8192x64, .f32⟩

abbrev bufTy : (tb : Table) → Fin (tcTables nBuf tb) → BufTy
  | .hbm, ⟨i, _⟩ => hbmTy i
  | .local _ .vmem, ⟨0, _⟩ => ⟨S128x64, .f32⟩
  | .local _ .vmem, ⟨1, _⟩ => ⟨S128x64, .f32⟩
  | .local _ .vmem, ⟨2, _⟩ => ⟨S8192x64, .f32⟩
  | .local _ .vmem, ⟨3, _⟩ => ⟨S8192x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S8192x64, .f32⟩
  | .local _ .vmem, ⟨9, _⟩ => ⟨S8192x64, .f32⟩
  | .local _ .vmem, ⟨10, _⟩ => ⟨S128x64, .f32⟩
  | .local _ .vmem, ⟨11, _⟩ => ⟨S128x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_7 : Ref sig .tc := ⟨.hbm, 73, rfl⟩
abbrev main_v40 : Ref sig .tc := ⟨.hbm, 74, rfl⟩
abbrev main_v41 : Ref sig .tc := ⟨.hbm, 75, rfl⟩
abbrev main_c_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_9 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_10 : Ref sig .tc := ⟨.hbm, 105, rfl⟩
abbrev main_v69 : Ref sig .tc := ⟨.hbm, 106, rfl⟩
abbrev main_v70 : Ref sig .tc := ⟨.hbm, 107, rfl⟩
abbrev main_c_11 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_12 : Ref sig .tc := ⟨.hbm, 115, rfl⟩
abbrev main_v77 : Ref sig .tc := ⟨.hbm, 116, rfl⟩
abbrev main_v78 : Ref sig .tc := ⟨.hbm, 117, rfl⟩
abbrev main_c_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_14 : Ref sig .tc := ⟨.hbm, 125, rfl⟩
abbrev main_v85 : Ref sig .tc := ⟨.hbm, 126, rfl⟩
abbrev main_v86 : Ref sig .tc := ⟨.hbm, 127, rfl⟩
abbrev main_c_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_16 : Ref sig .tc := ⟨.hbm, 142, rfl⟩
abbrev main_v100 : Ref sig .tc := ⟨.hbm, 143, rfl⟩
abbrev main_v101 : Ref sig .tc := ⟨.hbm, 144, rfl⟩
abbrev main_c_17 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_18 : Ref sig .tc := ⟨.hbm, 153, rfl⟩
abbrev main_v109 : Ref sig .tc := ⟨.hbm, 154, rfl⟩
abbrev main_v110 : Ref sig .tc := ⟨.hbm, 155, rfl⟩
abbrev main_c_19 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_20 : Ref sig .tc := ⟨.hbm, 164, rfl⟩
abbrev main_v118 : Ref sig .tc := ⟨.hbm, 165, rfl⟩
abbrev main_v119 : Ref sig .tc := ⟨.hbm, 166, rfl⟩
abbrev main_c_21 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_22 : Ref sig .tc := ⟨.hbm, 176, rfl⟩
abbrev main_v128 : Ref sig .tc := ⟨.hbm, 177, rfl⟩
abbrev main_v129 : Ref sig .tc := ⟨.hbm, 178, rfl⟩
abbrev main_cst_23 : Ref sig .tc := ⟨.hbm, 179, rfl⟩
abbrev main_v130 : Ref sig .tc := ⟨.hbm, 180, rfl⟩
abbrev main_v131 : Ref sig .tc := ⟨.hbm, 181, rfl⟩
abbrev main_cst_24 : Ref sig .tc := ⟨.hbm, 182, rfl⟩
abbrev main_v132 : Ref sig .tc := ⟨.hbm, 183, rfl⟩
abbrev main_v133 : Ref sig .tc := ⟨.hbm, 184, rfl⟩
abbrev main_cst_25 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_26 : Ref sig .tc := ⟨.hbm, 191, rfl⟩
abbrev main_v139 : Ref sig .tc := ⟨.hbm, 192, rfl⟩
abbrev main_v140 : Ref sig .tc := ⟨.hbm, 193, rfl⟩
abbrev main_cst_27 : Ref sig .tc := ⟨.hbm, 194, rfl⟩
abbrev main_v141 : Ref sig .tc := ⟨.hbm, 195, rfl⟩
abbrev main_v142 : Ref sig .tc := ⟨.hbm, 196, rfl⟩
abbrev main_cst_28 : Ref sig .tc := ⟨.hbm, 197, rfl⟩
abbrev main_v143 : Ref sig .tc := ⟨.hbm, 198, rfl⟩
abbrev main_v144 : Ref sig .tc := ⟨.hbm, 199, rfl⟩
abbrev main_cst_29 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_30 : Ref sig .tc := ⟨.hbm, 206, rfl⟩
abbrev main_v150 : Ref sig .tc := ⟨.hbm, 207, rfl⟩
abbrev main_v151 : Ref sig .tc := ⟨.hbm, 208, rfl⟩
abbrev main_cst_31 : Ref sig .tc := ⟨.hbm, 209, rfl⟩
abbrev main_v152 : Ref sig .tc := ⟨.hbm, 210, rfl⟩
abbrev main_v153 : Ref sig .tc := ⟨.hbm, 211, rfl⟩
abbrev main_cst_32 : Ref sig .tc := ⟨.hbm, 212, rfl⟩
abbrev main_v154 : Ref sig .tc := ⟨.hbm, 213, rfl⟩
abbrev main_v155 : Ref sig .tc := ⟨.hbm, 214, rfl⟩
abbrev main_cst_33 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S128x8192_S128 : S128x8192.Reduces [1] S128
  shapeCasts_S128_S128x1 : S128.ShapeCasts S128x1
  broadcasts_S128x1_S128x8192 : S128x1.Broadcasts S128x8192
  broadcasts_S128x1_S128x64 : S128x1.Broadcasts S128x64
  concatenates_S8192x64_S8192x64_S8192x128_d1 : Shape.Concatenates [S8192x64, S8192x64] S8192x128 1
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x64_S4096x192_d1 : Shape.Concatenates [S4096x128, S4096x64] S4096x192 1
  bcast_S_S4096x192 : S_.BroadcastsInDim S4096x192 (![] : Fin 0 → Fin S4096x192.rank)
  reducesTo_S4096x192_S4096_d1 : S4096x192.ReducesTo [1] S4096
  h_S_ : 0 < S_.numel
  bcast_S_S4096x1 : S_.BroadcastsInDim S4096x1 (![] : Fin 0 → Fin S4096x1.rank)
  bcast_S4096x1_S4096x192_0_1 : S4096x1.BroadcastsInDim S4096x192 (![0, 1] : Fin 2 → Fin S4096x192.rank)
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x64_S8192x64_1_0_0_1_n_n_wf : DotDims.WF S8192x64 S64x64 S8192x64 [1] [0] [0] [1] [] []
  dot_S128x64_S8192x64_S128x8192_1_1_0_0_n_n_wf : DotDims.WF S128x64 S8192x64 S128x8192 [1] [1] [0] [0] [] []
  dot_S128x8192_S8192x64_S128x64_1_0_0_1_n_n_wf : DotDims.WF S128x8192 S8192x64 S128x64 [1] [0] [0] [1] [] []
  gather_S8192x128_S4096x1_S4096x128_1_0_n_n_0_1_1128_wf : GatherDims.WF S8192x128 S4096x1 S4096x128 [1] [0] [] [0] [] 1 ![1, 128]
  gather_S8192x64_S4096x1_S4096x64_1_0_n_n_0_1_164_wf : GatherDims.WF S8192x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .f32 = 32 ∨ (Rect.block (s := S8192x64) S128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S8192x64.size a
  hwx0_3 : ∀ i : grid0.Coords, EltTy.bits .f32 = 32 ∨ (Rect.block (s := S8192x64) S128x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S8192x64.size a
  hwx1_0 : ∀ i : grid1.Coords, EltTy.bits .f32 = 32 ∨ (Rect.block (s := S8192x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .f32 = 32 ∨ (Rect.block (s := S8192x64) S8192x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S8192x64.size a
  hwx1_3 : ∀ i : grid1.Coords, EltTy.bits .f32 = 32 ∨ (Rect.block (s := S8192x64) S128x64.size (cc1_transform_3 i) (hinb1_3 i)).WholeWords (EltTy.packing .f32)

variable [Facts₀]

def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S128x64_S8192x64_S128x8192_1_1_0_0_n_n : DotDims S128x64 S8192x64 S128x8192 where
  lhsContracting := [1]
  rhsContracting := [1]
  lhsNonContracting := [0]
  rhsNonContracting := [0]
  lhsBatch := []
  rhsBatch := []
  wf := dot_S128x64_S8192x64_S128x8192_1_1_0_0_n_n_wf
def dot_S128x8192_S8192x64_S128x64_1_0_0_1_n_n : DotDims S128x8192 S8192x64 S128x64 where
  lhsContracting := [1]
  rhsContracting := [0]
  lhsNonContracting := [0]
  rhsNonContracting := [1]
  lhsBatch := []
  rhsBatch := []
  wf := dot_S128x8192_S8192x64_S128x64_1_0_0_1_n_n_wf
def gather_S8192x128_S4096x1_S4096x128_1_0_n_n_0_1_1128 : GatherDims S8192x128 S4096x1 S4096x128 where
  offsetDims := [1]
  collapsedSliceDims := [0]
  operandBatchingDims := []
  startIndicesBatchingDims := []
  startIndexMap := [0]
  indexVectorDim := 1
  sliceSizes := ![1, 128]
  wf := gather_S8192x128_S4096x1_S4096x128_1_0_n_n_0_1_1128_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf

abbrev win0_0 : Pipeline.Window sig grid0 :=
  Pipeline.Window.ofSpec (Memref.whole main_v52) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x64 : Shape := ⟨2, ![8192, 64]⟩
abbrev S64x64 : Shape := ⟨2, ![64, 64]⟩
abbrev S262144 : Shape := ⟨1, ![262144]⟩
abbrev S4096 : Shape := ⟨1, ![4096]⟩
abbrev S262144x1 : Shape := ⟨2, ![262144, 1]⟩
abbrev S_ : Shape := ⟨0, ![]⟩
abbrev S262144x64 : Shape := ⟨2, ![262144, 64]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩
abbrev S8192x128 : Shape := ⟨2, ![8192, 128]⟩
abbrev S4096x1 : Shape := ⟨2, ![4096, 1]⟩
abbrev S4096x128 : Shape := ⟨2, ![4096, 128]⟩
abbrev S4096x64 : Shape := ⟨2, ![4096, 64]⟩
abbrev S4096x192 : Shape := ⟨2, ![4096, 192]⟩

abbrev nBuf : Space → Nat
  | .hbm => 314
  | .vmem => 0
  | .smem => 0
  | _ => 0

abbrev hbmTy0_0 (i : Nat) : BufTy := match i % 128 with
  | 0 => ⟨S8192x64, .f32⟩
  | 1 => ⟨S8192x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S8192x64, .f32⟩
  | 9 => ⟨S8192x64, .f32⟩
  | 10 => ⟨S8192x64, .f32⟩
  | 11 => ⟨S8192x64, .f32⟩
  | 12 => ⟨S262144, .f32⟩
  | 13 => ⟨S262144, .f32⟩
  | 14 => ⟨S4096, .i32⟩
  | 15 => ⟨S4096, .i32⟩
  | 16 => ⟨S4096, .i32⟩
  | 17 => ⟨S4096, .i32⟩
  | 18 => ⟨S4096, .i32⟩
  | 19 => ⟨S4096, .i32⟩
  | 20 => ⟨S262144, .i32⟩
  | 21 => ⟨S262144, .i32⟩
  | 22 => ⟨S262144, .i32⟩
  | 23 => ⟨S262144, .i32⟩
  | 24 => ⟨S8192x64, .f32⟩
  | 25 => ⟨S8192x64, .f32⟩
  | 26 => ⟨S262144x1, .f32⟩
  | 27 => ⟨S_, .i32⟩
  | 28 => ⟨S262144, .i32⟩
  | 29 => ⟨S262144, .i1⟩
  | 30 => ⟨S_, .i32⟩
  | 31 => ⟨S262144, .i32⟩
  | 32 => ⟨S262144, .i32⟩
  | 33 => ⟨S262144, .i32⟩
  | 34 => ⟨S262144x1, .i32⟩
  | 35 => ⟨S262144x64, .f32⟩
  | 36 => ⟨S262144x64, .f32⟩
  | 37 => ⟨S262144x64, .f32⟩
  | 38 => ⟨S_, .f32⟩
  | 39 => ⟨S8192x64, .f32⟩
  | 40 => ⟨S262144x1, .i32⟩
  | 41 => ⟨S8192x64, .f32⟩
  | 42 => ⟨S262144x1, .f32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S262144x64, .f32⟩
  | 52 => ⟨S262144x64, .f32⟩
  | 53 => ⟨S262144x64, .f32⟩
  | 54 => ⟨S_, .f32⟩
  | 55 => ⟨S8192x64, .f32⟩
  | 56 => ⟨S262144x1, .i32⟩
  | 57 => ⟨S8192x64, .f32⟩
  | 58 => ⟨S64x8192, .f32⟩
  | 59 => ⟨S8192x8192, .f32⟩
  | 60 => ⟨S_, .f32⟩
  | 61 => ⟨S8192, .f32⟩
  | 62 => ⟨S_, .f32⟩
  | 63 => ⟨S8192, .f32⟩
  | 64 => ⟨S8192, .f32⟩
  | 65 => ⟨S8192x1, .f32⟩
  | 66 => ⟨S8192x8192, .f32⟩
  | 67 => ⟨S8192x8192, .f32⟩
  | 68 => ⟨S8192x8192, .f32⟩
  | 69 => ⟨S_, .f32⟩
  | 70 => ⟨S8192, .f32⟩
  | 71 => ⟨S8192x1, .f32⟩
  | 72 => ⟨S8192x8192, .f32⟩
  | 73 => ⟨S8192x8192, .f32⟩
  | 74 => ⟨S8192x64, .f32⟩
  | 75 => ⟨S8192x64, .f32⟩
  | 76 => ⟨S8192x64, .f32⟩
  | 77 => ⟨S8192x64, .f32⟩
  | 78 => ⟨S262144x1, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x64, .f32⟩
  | 88 => ⟨S262144x64, .f32⟩
  | 89 => ⟨S262144x64, .f32⟩
  | 90 => ⟨S_, .f32⟩
  | 91 => ⟨S8192x64, .f32⟩
  | 92 => ⟨S262144x1, .i32⟩
  | 93 => ⟨S8192x64, .f32⟩
  | 94 => ⟨S262144x1, .f32⟩
  | 95 => ⟨S_, .i32⟩
  | 96 => ⟨S262144, .i32⟩
  | 97 => ⟨S262144, .i1⟩
  | 98 => ⟨S_, .i32⟩
  | 99 => ⟨S262144, .i32⟩
  | 100 => ⟨S262144, .i32⟩
  | 101 => ⟨S262144, .i32⟩
  | 102 => ⟨S262144x1, .i32⟩
  | 103 => ⟨S262144x64, .f32⟩
  | 104 => ⟨S262144x64, .f32⟩
  | 105 => ⟨S262144x64, .f32⟩
  | 106 => ⟨S_, .f32⟩
  | 107 => ⟨S8192x64, .f32⟩
  | 108 => ⟨S262144x1, .i32⟩
  | 109 => ⟨S8192x64, .f32⟩
  | 110 => ⟨S64x8192, .f32⟩
  | 111 => ⟨S8192x8192, .f32⟩
  | 112 => ⟨S_, .f32⟩
  | 113 => ⟨S8192, .f32⟩
  | 114 => ⟨S_, .f32⟩
  | 115 => ⟨S8192, .f32⟩
  | 116 => ⟨S8192, .f32⟩
  | 117 => ⟨S8192x1, .f32⟩
  | 118 => ⟨S8192x8192, .f32⟩
  | 119 => ⟨S8192x8192, .f32⟩
  | 120 => ⟨S8192x8192, .f32⟩
  | 121 => ⟨S_, .f32⟩
  | 122 => ⟨S8192, .f32⟩
  | 123 => ⟨S8192x1, .f32⟩
  | 124 => ⟨S8192x8192, .f32⟩
  | 125 => ⟨S8192x8192, .f32⟩
  | 126 => ⟨S8192x64, .f32⟩
  | 127 => ⟨S8192x64, .f32⟩
  | _ => ⟨S8192x64, .f32⟩

abbrev hbmTy0_1 (i : Nat) : BufTy := match i % 128 with
  | 0 => ⟨S8192x64, .f32⟩
  | 1 => ⟨S262144x1, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S262144x64, .f32⟩
  | 11 => ⟨S262144x64, .f32⟩
  | 12 => ⟨S262144x64, .f32⟩
  | 13 => ⟨S_, .f32⟩
  | 14 => ⟨S8192x64, .f32⟩
  | 15 => ⟨S262144x1, .i32⟩
  | 16 => ⟨S8192x64, .f32⟩
  | 17 => ⟨S8192x64, .f32⟩
  | 18 => ⟨S8192x64, .f32⟩
  | 19 => ⟨S8192x64, .f32⟩
  | 20 => ⟨S262144x1, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x64, .f32⟩
  | 30 => ⟨S262144x64, .f32⟩
  | 31 => ⟨S262144x64, .f32⟩
  | 32 => ⟨S_, .f32⟩
  | 33 => ⟨S8192x64, .f32⟩
  | 34 => ⟨S262144x1, .i32⟩
  | 35 => ⟨S8192x64, .f32⟩
  | 36 => ⟨S8192x64, .f32⟩
  | 37 => ⟨S8192x64, .f32⟩
  | 38 => ⟨S8192x128, .f32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S4096x128, .f32⟩
  | 48 => ⟨S8192x128, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x128, .f32⟩
  | 58 => ⟨S8192x128, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S4096x128, .f32⟩
  | 68 => ⟨S8192x64, .f32⟩
  | 69 => ⟨S262144x1, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144x64, .f32⟩
  | 79 => ⟨S262144x64, .f32⟩
  | 80 => ⟨S262144x64, .f32⟩
  | 81 => ⟨S_, .f32⟩
  | 82 => ⟨S8192x64, .f32⟩
  | 83 => ⟨S262144x1, .i32⟩
  | 84 => ⟨S8192x64, .f32⟩
  | 85 => ⟨S8192x64, .f32⟩
  | 86 => ⟨S8192x64, .f32⟩
  | 87 => ⟨S8192x64, .f32⟩
  | 88 => ⟨S8192x64, .f32⟩
  | 89 => ⟨S262144x1, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144x64, .f32⟩
  | 99 => ⟨S262144x64, .f32⟩
  | 100 => ⟨S262144x64, .f32⟩
  | 101 => ⟨S_, .f32⟩
  | 102 => ⟨S8192x64, .f32⟩
  | 103 => ⟨S262144x1, .i32⟩
  | 104 => ⟨S8192x64, .f32⟩
  | 105 => ⟨S8192x64, .f32⟩
  | 106 => ⟨S8192x64, .f32⟩
  | 107 => ⟨S8192x64, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x64, .f32⟩
  | 117 => ⟨S4096x192, .f32⟩
  | 118 => ⟨S4096x192, .f32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S4096x64, .f32⟩
  | _ => ⟨S8192x64, .f32⟩

abbrev hbmTy0_2 (i : Nat) : BufTy := match i % 128 with
  | 0 => ⟨S4096x192, .f32⟩
  | 1 => ⟨S4096x192, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096x64, .f32⟩
  | 11 => ⟨S4096x192, .f32⟩
  | 12 => ⟨S4096x192, .f32⟩
  | 13 => ⟨S4096x192, .f32⟩
  | 14 => ⟨S_, .f32⟩
  | 15 => ⟨S4096x192, .f32⟩
  | 16 => ⟨S4096x192, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x192, .f32⟩
  | 27 => ⟨S4096x192, .f32⟩
  | 28 => ⟨S4096x192, .f32⟩
  | 29 => ⟨S_, .f32⟩
  | 30 => ⟨S4096x192, .f32⟩
  | 31 => ⟨S4096x192, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x192, .f32⟩
  | 42 => ⟨S4096x192, .f32⟩
  | 43 => ⟨S4096x192, .f32⟩
  | 44 => ⟨S_, .f32⟩
  | 45 => ⟨S4096x192, .f32⟩
  | 46 => ⟨S4096x192, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x192, .f32⟩
  | 57 => ⟨S4096x192, .f32⟩
  | _ => ⟨S8192x64, .f32⟩

abbrev hbmTy (i : Nat) : BufTy := match i / 128 with
  | 0 => hbmTy0_0 i
  | 1 => hbmTy0_1 i
  | 2 => hbmTy0_2 i
  | _ => ⟨S8192x64, .f32⟩

abbrev bufTy : (tb : Table) → Fin (tcTables nBuf tb) → BufTy
  | .hbm, ⟨i, _⟩ => hbmTy i
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_1 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_cst_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_12 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_13 : Ref sig .tc := ⟨.hbm, 112, rfl⟩
abbrev main_v73 : Ref sig .tc := ⟨.hbm, 113, rfl⟩
abbrev main_cst_14 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_c_16 : Ref sig .tc := ⟨.hbm, 130, rfl⟩
abbrev main_v88 : Ref sig .tc := ⟨.hbm, 131, rfl⟩
abbrev main_v89 : Ref sig .tc := ⟨.hbm, 132, rfl⟩
abbrev main_c_17 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_19 : Ref sig .tc := ⟨.hbm, 149, rfl⟩
abbrev main_v104 : Ref sig .tc := ⟨.hbm, 150, rfl⟩
abbrev main_v105 : Ref sig .tc := ⟨.hbm, 151, rfl⟩
abbrev main_c_20 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_21 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_22 : Ref sig .tc := ⟨.hbm, 167, rfl⟩
abbrev main_v119 : Ref sig .tc := ⟨.hbm, 168, rfl⟩
abbrev main_v120 : Ref sig .tc := ⟨.hbm, 169, rfl⟩
abbrev main_c_23 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_c_24 : Ref sig .tc := ⟨.hbm, 177, rfl⟩
abbrev main_v127 : Ref sig .tc := ⟨.hbm, 178, rfl⟩
abbrev main_v128 : Ref sig .tc := ⟨.hbm, 179, rfl⟩
abbrev main_c_25 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_c_26 : Ref sig .tc := ⟨.hbm, 187, rfl⟩
abbrev main_v135 : Ref sig .tc := ⟨.hbm, 188, rfl⟩
abbrev main_v136 : Ref sig .tc := ⟨.hbm, 189, rfl⟩
abbrev main_c_27 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_c_28 : Ref sig .tc := ⟨.hbm, 198, rfl⟩
abbrev main_v144 : Ref sig .tc := ⟨.hbm, 199, rfl⟩
abbrev main_v145 : Ref sig .tc := ⟨.hbm, 200, rfl⟩
abbrev main_c_29 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_30 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_31 : Ref sig .tc := ⟨.hbm, 218, rfl⟩
abbrev main_v161 : Ref sig .tc := ⟨.hbm, 219, rfl⟩
abbrev main_v162 : Ref sig .tc := ⟨.hbm, 220, rfl⟩
abbrev main_c_32 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_33 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_c_34 : Ref sig .tc := ⟨.hbm, 236, rfl⟩
abbrev main_v176 : Ref sig .tc := ⟨.hbm, 237, rfl⟩
abbrev main_v177 : Ref sig .tc := ⟨.hbm, 238, rfl⟩
abbrev main_c_35 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_c_36 : Ref sig .tc := ⟨.hbm, 247, rfl⟩
abbrev main_v185 : Ref sig .tc := ⟨.hbm, 248, rfl⟩
abbrev main_v186 : Ref sig .tc := ⟨.hbm, 249, rfl⟩
abbrev main_c_37 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_c_38 : Ref sig .tc := ⟨.hbm, 258, rfl⟩
abbrev main_v194 : Ref sig .tc := ⟨.hbm, 259, rfl⟩
abbrev main_v195 : Ref sig .tc := ⟨.hbm, 260, rfl⟩
abbrev main_c_39 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_cst_40 : Ref sig .tc := ⟨.hbm, 270, rfl⟩
abbrev main_v204 : Ref sig .tc := ⟨.hbm, 271, rfl⟩
abbrev main_v205 : Ref sig .tc := ⟨.hbm, 272, rfl⟩
abbrev main_cst_41 : Ref sig .tc := ⟨.hbm, 273, rfl⟩
abbrev main_v206 : Ref sig .tc := ⟨.hbm, 274, rfl⟩
abbrev main_v207 : Ref sig .tc := ⟨.hbm, 275, rfl⟩
abbrev main_cst_42 : Ref sig .tc := ⟨.hbm, 276, rfl⟩
abbrev main_v208 : Ref sig .tc := ⟨.hbm, 277, rfl⟩
abbrev main_v209 : Ref sig .tc := ⟨.hbm, 278, rfl⟩
abbrev main_cst_43 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_cst_44 : Ref sig .tc := ⟨.hbm, 285, rfl⟩
abbrev main_v215 : Ref sig .tc := ⟨.hbm, 286, rfl⟩
abbrev main_v216 : Ref sig .tc := ⟨.hbm, 287, rfl⟩
abbrev main_cst_45 : Ref sig .tc := ⟨.hbm, 288, rfl⟩
abbrev main_v217 : Ref sig .tc := ⟨.hbm, 289, rfl⟩
abbrev main_v218 : Ref sig .tc := ⟨.hbm, 290, rfl⟩
abbrev main_cst_46 : Ref sig .tc := ⟨.hbm, 291, rfl⟩
abbrev main_v219 : Ref sig .tc := ⟨.hbm, 292, rfl⟩
abbrev main_v220 : Ref sig .tc := ⟨.hbm, 293, rfl⟩
abbrev main_cst_47 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_cst_48 : Ref sig .tc := ⟨.hbm, 300, rfl⟩
abbrev main_v226 : Ref sig .tc := ⟨.hbm, 301, rfl⟩
abbrev main_v227 : Ref sig .tc := ⟨.hbm, 302, rfl⟩
abbrev main_cst_49 : Ref sig .tc := ⟨.hbm, 303, rfl⟩
abbrev main_v228 : Ref sig .tc := ⟨.hbm, 304, rfl⟩
abbrev main_v229 : Ref sig .tc := ⟨.hbm, 305, rfl⟩
abbrev main_cst_50 : Ref sig .tc := ⟨.hbm, 306, rfl⟩
abbrev main_v230 : Ref sig .tc := ⟨.hbm, 307, rfl⟩
abbrev main_v231 : Ref sig .tc := ⟨.hbm, 308, rfl⟩
abbrev main_cst_51 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x64_S8192x64_S8192x128_d1 : Shape.Concatenates [S8192x64, S8192x64] S8192x128 1
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x64_S4096x192_d1 : Shape.Concatenates [S4096x128, S4096x64] S4096x192 1
  bcast_S_S4096x192 : S_.BroadcastsInDim S4096x192 (![] : Fin 0 → Fin S4096x192.rank)
  reducesTo_S4096x192_S4096_d1 : S4096x192.ReducesTo [1] S4096
  bcast_S_S4096x1 : S_.BroadcastsInDim S4096x1 (![] : Fin 0 → Fin S4096x1.rank)
  bcast_S4096x1_S4096x192_0_1 : S4096x1.BroadcastsInDim S4096x192 (![0, 1] : Fin 2 → Fin S4096x192.rank)
  dot_S8192x64_S64x64_S8192x64_1_0_0_1_n_n_wf : DotDims.WF S8192x64 S64x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []
  gather_S8192x128_S4096x1_S4096x128_1_0_n_n_0_1_1128_wf : GatherDims.WF S8192x128 S4096x1 S4096x128 [1] [0] [] [0] [] 1 ![1, 128]
  gather_S8192x64_S4096x1_S4096x64_1_0_n_n_0_1_164_wf : GatherDims.WF S8192x64 S4096x1 S4096x64 [1] [0] [] [0] [] 1 ![1, 64]

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def gather_S8192x128_S4096x1_S4096x128_1_0_n_n_0_1_1128 : GatherDims S8192x128 S4096x1 S4096x128 where
  offsetDims := [1]
  collapsedSliceDims := [0]
  operandBatchingDims := []
  startIndicesBatchingDims := []
  startIndexMap := [0]
  indexVectorDim := 1
  sliceSizes := ![1, 128]
  wf := gather_S8192x128_S4096x1_S4096x128_1_0_n_n_0_1_1128_wf
def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf

class Facts : Prop extends Facts₀ where

variable [Facts]
-- ==== Proof.Spec.lean ====
/-
  The two programs as functions of their argument arrays, at the exact instance (floats are extended reals).

  Both programs are built from the same few array functions:
  * `spmm val gi ri X`: the sparse product A·X of an 8192×64 array X with the matrix A whose entry (r, g) is the
    sum of the edge weights `val e` over the edges e with row index `ri e = r` and (wrapped, clamped) column
    index `gi e = g` — a gather of X's rows at the column indices, each scaled by its edge weight, added into
    the rows named by the row indices;
  * `mm X W`: the product of an 8192×64 array with a 64×64 matrix;
  * the attention of queries Q against keys K with values VW: row r of the result is the softmax of the logits
    Q[r,:]·K[k,:] over k, applied to VW — in the reference's spelling (`attnR`: normalise the weights, multiply by the
    values E, then by W) and in the kernel's (`attnK`: multiply the unnormalised weights by the values, divide by
    their sum);
  * `rowOut`, `p5norm`: the shared epilogue (concatenate, gather the batch rows, tanh, divide by the 5-norm).
-/
import proofs.«420976_j38130719654352_3_alg».proof.Proof.Gen.ReferenceIdeal
import Idealize.ShloMosaic.Lib.ValueIdx
import Mathlib.Order.Lattice
import Mathlib.Data.Finset.Lattice.Fold

noncomputable section

namespace Cert.BGCF

open Idealize.ShloMosaic Idealize.ShloMosaic.ValueIdx Cert.ReferenceIdeal Cert.ReferenceIdeal.Facts₀
open scoped BigOperators

/-- An 8192×64 array of extended reals. -/
abbrev Mat := FVec Ideal S8192x64 .f32
/-- A 64×64 weight matrix. -/
abbrev Wt := FVec Ideal S64x64 .f32
/-- One weight per edge. -/
abbrev EdgeVal := FVec Ideal S262144 .f32
/-- One node index per edge. -/
abbrev EdgeIdx := IVec S262144 32
/-- One node index per batch entry. -/
abbrev BatchIdx := IVec S4096 32
/-- A batch of 4096 rows of 192 features. -/
abbrev Out := FVec Ideal S4096x192 .f32

/-- Every entry of the array is a real number (neither infinity). -/
def IsRealV {s : Shape} (x : s.Idx → EReal) : Prop := ∀ i, ∃ r : ℝ, x i = (r : EReal)

/-- The edge indices with negative ones wrapped by 8192, as a column of gather start indices. -/
def wrapE (i : EdgeIdx) : IVec S262144x1 32 :=
  broadcastInDim S262144x1 ![0] bcast_S262144_S262144x1_0
    (select (cmpi .slt i (broadcastInDim S262144 ![] bcast_S_S262144 (constantI S_ 32 0#32)))
      (addi i (broadcastInDim S262144 ![] bcast_S_S262144 (constantI S_ 32 8192#32))) i)

/-- The batch indices with negative ones wrapped by 8192, as a column of gather start indices. -/
def wrapB (i : BatchIdx) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 8192#32))) i)

/-- The sparse product: gather X's rows at the (wrapped) indices `gi`, scale row e by `val e`, and add row e into
    row `ri e` of a zero array (an edge whose row index is out of range adds nothing). -/
def spmm (val : EdgeVal) (gi ri : EdgeIdx) (X : Mat) : Mat :=
  Host.scatterAdd scatter_S8192x64_S262144x1_S262144x64_1_0_0_1
    (broadcastInDim S8192x64 ![] bcast_S_S8192x64 (constant (F := Ideal) S_ .f32 0x00000000#32))
    (broadcastInDim S262144x1 ![0] bcast_S262144_S262144x1_0 ri)
    (mulf (broadcastInDim S262144x64 ![0, 1] bcast_S262144x1_S262144x64_0_1
        (broadcastInDim S262144x1 ![0] bcast_S262144_S262144x1_0 val))
      (Host.gather gather_S8192x64_S262144x1_S262144x64_1_0_n_n_0_1_164 X (wrapE gi)))

/-- The product of an 8192×64 array with a 64×64 matrix. -/
def mm (X : Mat) (W : Wt) : Mat :=
  Host.dotGeneral dot_S8192x64_S64x64_S8192x64_1_0_0_1_n_n none X W

/-! ## The attention, as the reference spells it -/

/-- The 8192×8192 logits Q·Kᵀ. -/
def logitsR (Q K : Mat) : FVec Ideal S8192x8192 .f32 :=
  Host.dotGeneral dot_S8192x64_S64x8192_S8192x8192_1_0_0_1_n_n none Q
    (transpose S64x8192 [1, 0] K transposes_S8192x64_S64x8192_1_0)

/-- exp of the logits less their row maximum. -/
def expR (s : FVec Ideal S8192x8192 .f32) : FVec Ideal S8192x8192 .f32 :=
  Host.exp (subf s (broadcastInDim S8192x8192 ![0, 1] bcast_S8192x1_S8192x8192_0_1
    (broadcastInDim S8192x1 ![0] bcast_S8192_S8192x1_0
      (maximumf (broadcastInDim S8192 ![] bcast_S_S8192 (constant (F := Ideal) S_ .f32 0xFF800000#32))
        (Host.reduce FloatOps.maximumf s (constant (F := Ideal) S_ .f32 0xFF800000#32) reducesTo_S8192x8192_S8192_d1 h_S_)))))

/-- The reference's attention: the softmax weights of Q against K, times E, times W. -/
def attnR (Q K E : Mat) (W : Wt) : Mat :=
  mm (Host.dotGeneral dot_S8192x8192_S8192x64_S8192x64_1_0_0_1_n_n none
      (Host.divf (expR (logitsR Q K))
        (broadcastInDim S8192x8192 ![0, 1] bcast_S8192x1_S8192x8192_0_1
          (broadcastInDim S8192x1 ![0] bcast_S8192_S8192x1_0
            (Host.reduceAdd (expR (logitsR Q K)) (constant (F := Ideal) S_ .f32 0x00000000#32) reducesTo_S8192x8192_S8192_d1 h_S_))))
      E) W

/-! ## The attention, as the kernel computes it: one query row at a time -/

/-- The logit of a query row q against key row k. -/
def logitRow (q : Fin 64 → EReal) (K : Mat) (k : Fin 8192) : EReal := ∑ d : Fin 64, q d * K (ix2 k d)

/-- The largest logit of a query row. -/
def rowMax (q : Fin 64 → EReal) (K : Mat) : EReal := Finset.univ.sup (logitRow q K)

/-- The unnormalised softmax weight of key row k for the query row q. -/
def wgt (q : Fin 64 → EReal) (K : Mat) (k : Fin 8192) : EReal := Ideal.exp (logitRow q K k - rowMax q K)

/-- Feature c of the attention output for the query row q: the weighted sum of the values over the sum of the weights. -/
def attnRow (q : Fin 64 → EReal) (K VW : Mat) (c : Fin 64) : EReal :=
  Ideal.div (∑ k : Fin 8192, wgt q K k * VW (ix2 k c)) (∑ k : Fin 8192, wgt q K k)

/-- The kernel's attention over the whole array: row r is `attnRow` of Q's row r. -/
def attnK (Q K VW : Mat) : Mat := fun i => attnRow (fun d => Q (ix2 (i 0) d)) K VW (i 1)

theorem attnK_apply (Q K VW : Mat) (r : Fin 8192) (c : Fin 64) :
    attnK Q K VW (ix2 r c) = attnRow (fun d => Q (ix2 r d)) K VW c := rfl

/-! ## The shared epilogue -/

/-- tanh of: rows `i1` of [h1 | h2] beside rows `i2` of ho. -/
def rowOut (h1 h2 ho : Mat) (i1 i2 : BatchIdx) : Out :=
  Host.tanh (concatenate S4096x192 1
    [⟨S4096x128, Host.gather gather_S8192x128_S4096x1_S4096x128_1_0_n_n_0_1_1128
        (concatenate S8192x128 1 [⟨S8192x64, h1⟩, ⟨S8192x64, h2⟩] concatenates_S8192x64_S8192x64_S8192x128_d1) (wrapB i1)⟩,
     ⟨S4096x64, Host.gather gather_S8192x64_S4096x1_S4096x64_1_0_n_n_0_1_164 ho (wrapB i2)⟩]
    concatenates_S4096x128_S4096x64_S4096x192_d1)

/-- Each row divided by the larger of its 5-norm and 1e-12. -/
def p5norm (x : Out) : Out :=
  Host.divf x (broadcastInDim S4096x192 ![0, 1] bcast_S4096x1_S4096x192_0_1
    (maximumf (Host.powf (broadcastInDim S4096x1 ![0] bcast_S4096_S4096x1_0
        (Host.reduceAdd (Host.powf (Host.absf x) (broadcastInDim S4096x192 ![] bcast_S_S4096x192 (constant (F := Ideal) S_ .f32 0x40A00000#32)))
          (constant (F := Ideal) S_ .f32 0x00000000#32) reducesTo_S4096x192_S4096_d1 h_S_))
        (broadcastInDim S4096x1 ![] bcast_S_S4096x1 (constant (F := Ideal) S_ .f32 0x3E4CCCCD#32)))
      (broadcastInDim S4096x1 ![] bcast_S_S4096x1 (constant (F := Ideal) S_ .f32 0x2B8CBCCC#32))))

end Cert.BGCF

end
-- ==== Proof.Values.lean ====
/-
  Both programs' results as functions of the 24 argument arrays.

  With A the sampled graph's weighted adjacency (rows `adjRow`, columns `adjCol`, weights `adjVal`) and A_o the observed
  graph's, the kernel aggregates the raw embeddings once per graph and side,
      S1 = A·item,  S2 = Aᵀ·user,  S3 = A_o·item,  S4 = A_oᵀ·user,
  and multiplies by the 64×64 weights afterwards; the reference multiplies first and aggregates the products. Both then
  run the same epilogue on [attention | sampled mean | observed mean].
-/
import proofs.«420976_j38130719654352_3_alg».proof.Proof.Spec

noncomputable section

namespace Cert.BGCF

open Idealize.ShloMosaic Idealize.ShloMosaic.ValueIdx Cert.ReferenceIdeal Cert.ReferenceIdeal.Facts₀

/-- The 24 argument arrays, in the order of the programs' parameters. -/
structure Args where
  user : Mat
  item : Mat
  wAu : Wt
  wAi : Wt
  wMu : Wt
  wMi : Wt
  wOu : Wt
  wOi : Wt
  nSu : Mat
  nSi : Mat
  nOu : Mat
  nOi : Mat
  adjVal : EdgeVal
  obsVal : EdgeVal
  users : BatchIdx
  pos : BatchIdx
  neg : BatchIdx
  oUsers : BatchIdx
  oPos : BatchIdx
  oNeg : BatchIdx
  adjRow : EdgeIdx
  adjCol : EdgeIdx
  obsRow : EdgeIdx
  obsCol : EdgeIdx

/-- Every float argument holds real numbers only. -/
structure Args.Finite (A : Args) : Prop where
  user : IsRealV A.user
  item : IsRealV A.item
  wAu : IsRealV A.wAu
  wAi : IsRealV A.wAi
  wMu : IsRealV A.wMu
  wMi : IsRealV A.wMi
  wOu : IsRealV A.wOu
  wOi : IsRealV A.wOi
  nSu : IsRealV A.nSu
  nSi : IsRealV A.nSi
  nOu : IsRealV A.nOu
  nOi : IsRealV A.nOi
  adjVal : IsRealV A.adjVal
  obsVal : IsRealV A.obsVal

namespace Args

variable (A : Args)

/-! ## The kernel's side: aggregate, then multiply -/

/-- A·item. -/
def S1 : Mat := spmm A.adjVal A.adjCol A.adjRow A.item
/-- Aᵀ·user. -/
def S2 : Mat := spmm A.adjVal A.adjRow A.adjCol A.user
/-- A_o·item. -/
def S3 : Mat := spmm A.obsVal A.obsCol A.obsRow A.item
/-- A_oᵀ·user. -/
def S4 : Mat := spmm A.obsVal A.obsRow A.obsCol A.user

def kH1u : Mat := attnK (mm A.S1 A.wAu) (mm A.S2 A.wAu) (mm (mm A.item A.wAu) A.wAu)
def kH1i : Mat := attnK (mm A.S2 A.wAi) (mm A.S1 A.wAi) (mm (mm A.user A.wAi) A.wAi)
def kH2u : Mat := mm (mulf (mm A.S1 A.wMu) A.nSu) A.wMu
def kH2i : Mat := mm (mulf (mm A.S2 A.wMi) A.nSi) A.wMi
def kHou : Mat := Host.tanh (mm (mulf (mm A.S3 A.wOu) A.nOu) A.wOu)
def kHoi : Mat := Host.tanh (mm (mulf (mm A.S4 A.wOi) A.nOi) A.wOi)

/-- The kernel's three results before the final normalisation. -/
def kOut0 : Out := rowOut A.kH1u A.kH2u A.kHou A.users A.oUsers
def kOut1 : Out := rowOut A.kH1i A.kH2i A.kHoi A.pos A.oPos
def kOut2 : Out := rowOut A.kH1i A.kH2i A.kHoi A.neg A.oNeg

/-! ## The reference's side: multiply, then aggregate -/

def rH1u : Mat :=
  attnR (spmm A.adjVal A.adjCol A.adjRow (mm A.item A.wAu)) (spmm A.adjVal A.adjRow A.adjCol (mm A.user A.wAu))
    (mm A.item A.wAu) A.wAu
def rH1i : Mat :=
  attnR (spmm A.adjVal A.adjRow A.adjCol (mm A.user A.wAi)) (spmm A.adjVal A.adjCol A.adjRow (mm A.item A.wAi))
    (mm A.user A.wAi) A.wAi
def rH2u : Mat := mm (mulf (spmm A.adjVal A.adjCol A.adjRow (mm A.item A.wMu)) A.nSu) A.wMu
def rH2i : Mat := mm (mulf (spmm A.adjVal A.adjRow A.adjCol (mm A.user A.wMi)) A.nSi) A.wMi
def rHou : Mat := Host.tanh (mm (mulf (spmm A.obsVal A.obsCol A.obsRow (mm A.item A.wOu)) A.nOu) A.wOu)
def rHoi : Mat := Host.tanh (mm (mulf (spmm A.obsVal A.obsRow A.obsCol (mm A.user A.wOi)) A.nOi) A.wOi)

/-- The reference's three results before the final normalisation. -/
def rOut0 : Out := rowOut A.rH1u A.rH2u A.rHou A.users A.oUsers
def rOut1 : Out := rowOut A.rH1i A.rH2i A.rHoi A.pos A.oPos
def rOut2 : Out := rowOut A.rH1i A.rH2i A.rHoi A.neg A.oNeg

end Args

end Cert.BGCF

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.RowReduceAt.lean ====
/-
  The row reductions read at an index: the maximum and the sum along the rows of a two-dimensional array, as the
  host spells them (a reduction of an 8192×8192 array from an initial value) and as the kernel spells them (a
  reduction of a 128×8192 block from an accumulator). From minus infinity the maximum is the supremum of the row's
  entries; from zero the sum is the sum of the row's entries.
-/
import proofs.«420976_j38130719654352_3_alg».proof.Proof.Spec
import proofs.«420976_j38130719654352_3_alg».proof.Proof.Gen.KernelIdeal
import proofs.«420976_j38130719654352_3_alg».proof.Proof.LibERealBatchNorm
import Idealize.ShloMosaic.PureOps.Ideal.Laws
import Idealize.ShloMosaic.PureOps.Reduce
import Idealize.ShloMosaic.Lib.IdealHost
import Idealize.ShloMosaic.Lib.ValueIdx
import Idealize.ShloMosaic.Lib.ValueIdxRank1

noncomputable section

namespace Cert.BGCF

open Idealize.ShloMosaic Idealize.ShloMosaic.ValueIdx Cert.ReferenceIdeal Cert.ReferenceIdeal.Facts₀
open scoped BigOperators

/-! ## The host's side: an 8192×8192 array reduced along its rows -/

/-- The shape fact of the row reduction of an 8192×8192 array, in the form that names the inserted index. -/
theorem reduces_S8192x8192_S8192 : S8192x8192.Reduces [1] S8192 := by decide

/-- Row r with the column coordinate k inserted is the index (r, k). -/
theorem lift_S8192x8192 (r : Fin 8192) (k : Fin 8192) :
    reduces_S8192x8192_S8192.lift (ix1 r) k = ix2 r k := by
  funext c; apply Fin.ext
  match c with
  | ⟨0, _⟩ => rfl
  | ⟨1, _⟩ => rfl

/-- The word of minus infinity is the bottom of the extended reals. -/
theorem ofBits_negInf_f32 : Ideal.ofBits .f32 0xFF800000#32 = ⊥ := by
  simp [Ideal.ofBits, Ideal.ieee]

/-- Folding the maximum from the bottom over a finite family is the family's supremum. -/
theorem fold_max_bot_eq_sup {ι : Type*} (t : Finset ι) (f : ι → EReal) : t.fold max ⊥ f = t.sup f := rfl

/-- The row maximum the host takes, from minus infinity, is the supremum of the row's entries. -/
theorem hostRowMax_apply (s : FVec Ideal S8192x8192 .f32) (r : Fin 8192) :
    Host.reduce FloatOps.maximumf s (constant (F := Ideal) S_ .f32 0xFF800000#32) reducesTo_S8192x8192_S8192_d1 h_S_ (ix1 r)
      = Finset.univ.sup (fun k : Fin 8192 => s (ix2 r k)) := by
  rw [Host.reduce_eq_fold_single FloatOps.maximumf s _ reducesTo_S8192x8192_S8192_d1 reduces_S8192x8192_S8192 h_S_ (ix1 r)]
  have hf : (s ∘ reduces_S8192x8192_S8192.lift (ix1 r)) = fun k : Fin 8192 => s (ix2 r k) :=
    funext fun k => congrArg s (lift_S8192x8192 r k)
  rw [hf, show (constant (F := Ideal) S_ .f32 0xFF800000#32) (Shape.Idx.first h_S_) = ⊥ from ofBits_negInf_f32]
  exact fold_max_bot_eq_sup _ _

/-- The row sum the host takes, from zero, is the sum of the row's entries. -/
theorem hostRowSum_apply (p : FVec Ideal S8192x8192 .f32) (r : Fin 8192) :
    Host.reduceAdd p (constant (F := Ideal) S_ .f32 0x00000000#32) reducesTo_S8192x8192_S8192_d1 h_S_ (ix1 r)
      = ∑ k : Fin 8192, p (ix2 r k) := by
  rw [hostReduceAdd_apply, Ideal.hostReduceAdd_single reducesTo_S8192x8192_S8192_d1 reduces_S8192x8192_S8192]
  show Ideal.ofBits .f32 0x00000000#32 + ∑ k : Fin 8192, p (reduces_S8192x8192_S8192.lift (ix1 r) k) = _
  rw [Ideal.ofBits_zero_f32, zero_add]
  exact Finset.sum_congr rfl fun k _ => congrArg p (lift_S8192x8192 r k)

/-! ## The kernel's side: a 128×8192 block reduced along its rows -/

/-- Row p of the block with the column coordinate k inserted is the index (p, k). -/
theorem lift_S128x8192 (p : Fin 128) (k : Fin 8192) :
    Cert.KernelIdeal.Facts₀.reduces_S128x8192_S128.lift (ix1 p) k = ix2 p k := by
  funext c; apply Fin.ext
  match c with
  | ⟨0, _⟩ => rfl
  | ⟨1, _⟩ => rfl

/-- The row maximum the kernel takes, from minus infinity, is the supremum of the row's entries. -/
theorem kernelRowMax_apply (s : FVec Ideal Cert.KernelIdeal.S128x8192 .f32) (p : Fin 128) :
    multiReduction (F := Ideal) .maximumf [1] Cert.KernelIdeal.S128 s 0xFF800000#32
        Cert.KernelIdeal.Facts₀.reduces_S128x8192_S128 (.inl rfl) rfl (ix1 p)
      = Finset.univ.sup (fun k : Fin 8192 => s (ix2 p k)) := by
  refine (Ideal.multiReduction_maximumf_single s 0xFF800000#32 Cert.KernelIdeal.Facts₀.reduces_S128x8192_S128
    (.inl rfl) rfl (ix1 p)).trans ?_
  have hf : (s ∘ Cert.KernelIdeal.Facts₀.reduces_S128x8192_S128.lift (ix1 p)) = fun k : Fin 8192 => s (ix2 p k) :=
    funext fun k => congrArg s (lift_S128x8192 p k)
  rw [hf, show FloatOps.ofBits (F := Ideal) .f32 0xFF800000#32 = ⊥ from ofBits_negInf_f32]
  exact fold_max_bot_eq_sup _ _

/-- The row sum the kernel takes, from zero, is the sum of the row's entries. -/
theorem kernelRowSum_apply (s : FVec Ideal Cert.KernelIdeal.S128x8192 .f32) (p : Fin 128) :
    multiReduction (F := Ideal) .add [1] Cert.KernelIdeal.S128 s 0x00000000#32
        Cert.KernelIdeal.Facts₀.reduces_S128x8192_S128 (.inl rfl) rfl (ix1 p)
      = ∑ k : Fin 8192, s (ix2 p k) := by
  refine (Ideal.multiReduction_add_single s 0x00000000#32 Cert.KernelIdeal.Facts₀.reduces_S128x8192_S128
    (.inl rfl) rfl (ix1 p)).trans ?_
  exact Finset.sum_congr rfl fun k _ => congrArg s (lift_S128x8192 p k)

end Cert.BGCF

end
-- ==== Proof.AttnPayload.lean ====
/-
  What the attention kernel's body stores, read at an index.

  The body computes, for a block of 128 query rows against all 8192 key rows: the logits s = Q·Kᵀ (128×8192), the row
  maxima m, the unnormalised weights e = exp (s − m), their row sums l, the weighted values o = e·VW (128×64), and
  stores o / l. Read at row p and feature c this is the attention row (attnRow) of the block's row p: the weighted sum
  of the values over the sum of the weights.

  The module states one small fact per operation that is not elementwise (a vector viewed as a column and repeated
  along the columns, the two products into the zero array) over arrays of any extents, and assembles them.
-/
import proofs.«420976_j38130719654352_3_alg».proof.Proof.Spec
import proofs.«420976_j38130719654352_3_alg».proof.Proof.RowReduceAt
import proofs.«420976_j38130719654352_3_alg».proof.Proof.Gen.KernelIdeal.Skeleton
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.BGCF

open Idealize.ShloMosaic Idealize.ShloMosaic.ValueIdx Cert.ReferenceIdeal Cert.ReferenceIdeal.Facts₀
open scoped BigOperators

namespace AttnPayload

section Layout
variable {α : Type}

/-- A vector of m entries viewed as an m×1 column and then repeated along n columns reads, at (p, q), the vector's
    entry p. -/
theorem keepdims_apply {m n : ℕ} (v : (⟨1, ![m]⟩ : Shape).Idx → α)
    (hsc : (⟨1, ![m]⟩ : Shape).ShapeCasts ⟨2, ![m, 1]⟩) (hb : (⟨2, ![m, 1]⟩ : Shape).Broadcasts ⟨2, ![m, n]⟩)
    (p : Fin m) (q : Fin n) :
    broadcastTo ⟨2, ![m, n]⟩ (shapeCast ⟨2, ![m, 1]⟩ v hsc) hb (ix2 p q) = v (ix1 p) := by
  have e1 : broadcastTo ⟨2, ![m, n]⟩ (shapeCast ⟨2, ![m, 1]⟩ v hsc) hb (ix2 p q)
      = shapeCast ⟨2, ![m, 1]⟩ v hsc (ix2 p (0 : Fin 1)) := by
    refine broadcastTo_apply _ hb (ix2 p q) (ix2 p (0 : Fin 1)) fun ax => ?_
    match ax with
    | ⟨0, _⟩ =>
      show p.val = if m = 1 then 0 else p.val
      split
      · have := p.isLt; omega
      · rfl
    | ⟨1, _⟩ => rfl
  rw [e1]
  exact shapeCast_apply v hsc _ _ (by
    rw [Shape.rowMajor_val_one, Shape.rowMajor_val_two]
    show p.val = p.val * 1 + 0
    omega)

end Layout

/-- The exponential of an array, read at an index, is the exponential of the entry there. -/
theorem expv_apply {s : Shape} (a : FVec Ideal s .f32) (i : s.Idx) : exp a i = Ideal.exp (a i) := rfl

section Products
variable {m n k : ℕ}

/-- Rows against rows: the dimension numbers that contract axis 1 of both operands, [m, k] · [n, k] → [m, n]. -/
abbrev dNT (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- Rows against columns: the dimension numbers that contract axis 1 of the left operand with axis 0 of the right,
    [m, k] · [k, n] → [m, n]. -/
abbrev dNN (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- Rows against rows: the left operand's row is the result's row. -/
theorem nt_lhs0 (w : DotDims.WF ⟨2, ![m, k]⟩ ⟨2, ![n, k]⟩ ⟨2, ![m, n]⟩ [1] [1] [0] [0] [] [])
    (j : (⟨2, ![m, n]⟩ : Shape).Idx) (q : (dNT w).contr.Idx) : ((dNT w).lhsIdx j q 0).val = (j 0).val := by
  simp [DotDims.lhsIdx]
  rfl

/-- Rows against rows: the left operand's column is the contracted coordinate. -/
theorem nt_lhs1 (w : DotDims.WF ⟨2, ![m, k]⟩ ⟨2, ![n, k]⟩ ⟨2, ![m, n]⟩ [1] [1] [0] [0] [] [])
    (j : (⟨2, ![m, n]⟩ : Shape).Idx) (q : (dNT w).contr.Idx) :
    ((dNT w).lhsIdx j q 1).val = (q ⟨0, by rw [DotDims.rank_contr]; exact Nat.one_pos⟩).val :=
  (dNT w).lhsIdx_val_of_single rfl j q

/-- Rows against rows: the right operand's row is the result's column. -/
theorem nt_rhs0 (w : DotDims.WF ⟨2, ![m, k]⟩ ⟨2, ![n, k]⟩ ⟨2, ![m, n]⟩ [1] [1] [0] [0] [] [])
    (j : (⟨2, ![m, n]⟩ : Shape).Idx) (q : (dNT w).contr.Idx) : ((dNT w).rhsIdx j q 0).val = (j 1).val := by
  simp [DotDims.rhsIdx]
  rfl

/-- Rows against rows: the right operand's column is the contracted coordinate. -/
theorem nt_rhs1 (w : DotDims.WF ⟨2, ![m, k]⟩ ⟨2, ![n, k]⟩ ⟨2, ![m, n]⟩ [1] [1] [0] [0] [] [])
    (j : (⟨2, ![m, n]⟩ : Shape).Idx) (q : (dNT w).contr.Idx) :
    ((dNT w).rhsIdx j q 1).val = (q ⟨0, by rw [DotDims.rank_contr]; exact Nat.one_pos⟩).val :=
  (dNT w).rhsIdx_val_of_single rfl j q

/-- Rows against columns: the left operand's row is the result's row. -/
theorem nn_lhs0 (w : DotDims.WF ⟨2, ![m, k]⟩ ⟨2, ![k, n]⟩ ⟨2, ![m, n]⟩ [1] [0] [0] [1] [] [])
    (j : (⟨2, ![m, n]⟩ : Shape).Idx) (q : (dNN w).contr.Idx) : ((dNN w).lhsIdx j q 0).val = (j 0).val := by
  simp [DotDims.lhsIdx]
  rfl

/-- Rows against columns: the left operand's column is the contracted coordinate. -/
theorem nn_lhs1 (w : DotDims.WF ⟨2, ![m, k]⟩ ⟨2, ![k, n]⟩ ⟨2, ![m, n]⟩ [1] [0] [0] [1] [] [])
    (j : (⟨2, ![m, n]⟩ : Shape).Idx) (q : (dNN w).contr.Idx) :
    ((dNN w).lhsIdx j q 1).val = (q ⟨0, by rw [DotDims.rank_contr]; exact Nat.one_pos⟩).val :=
  (dNN w).lhsIdx_val_of_single rfl j q

/-- Rows against columns: the right operand's row is the contracted coordinate. -/
theorem nn_rhs0 (w : DotDims.WF ⟨2, ![m, k]⟩ ⟨2, ![k, n]⟩ ⟨2, ![m, n]⟩ [1] [0] [0] [1] [] [])
    (j : (⟨2, ![m, n]⟩ : Shape).Idx) (q : (dNN w).contr.Idx) :
    ((dNN w).rhsIdx j q 0).val = (q ⟨0, by rw [DotDims.rank_contr]; exact Nat.one_pos⟩).val :=
  (dNN w).rhsIdx_val_of_single rfl j q

/-- Rows against columns: the right operand's column is the result's column. -/
theorem nn_rhs1 (w : DotDims.WF ⟨2, ![m, k]⟩ ⟨2, ![k, n]⟩ ⟨2, ![m, n]⟩ [1] [0] [0] [1] [] [])
    (j : (⟨2, ![m, n]⟩ : Shape).Idx) (q : (dNN w).contr.Idx) : ((dNN w).rhsIdx j q 1).val = (j 1).val := by
  simp [DotDims.rhsIdx]
  rfl

/-- A product of rows against rows into the zero array: entry (a, b) is the sum over the k shared coordinates of
    A (a, c) · B (b, c). -/
theorem matmulNT_apply (w : DotDims.WF ⟨2, ![m, k]⟩ ⟨2, ![n, k]⟩ ⟨2, ![m, n]⟩ [1] [1] [0] [0] [] [])
    (prec : Option ContractPrecision) (A : FVec Ideal ⟨2, ![m, k]⟩ .f32) (B : FVec Ideal ⟨2, ![n, k]⟩ .f32)
    (a : Fin m) (b : Fin n) :
    matmul (dNT w) prec A B (constant (F := Ideal) ⟨2, ![m, n]⟩ .f32 0x00000000#32) (ix2 a b)
      = ∑ c : Fin k, A (ix2 a c) * B (ix2 b c) := by
  show FloatOps.matmul (dNT w) prec A B (constant (F := Ideal) ⟨2, ![m, n]⟩ .f32 0x00000000#32) (ix2 a b) = _
  rw [Ideal.matmul_constant_zero_apply, ← Equiv.sum_comp (contrEquiv1 (dNT w) k rfl rfl).symm]
  refine Finset.sum_congr rfl fun c _ => ?_
  have hc := contrEquiv1_symm_val (dNT w) k rfl rfl c
  have hl : (dNT w).lhsIdx (ix2 a b) ((contrEquiv1 (dNT w) k rfl rfl).symm c) = ix2 a c := by
    funext ax; apply Fin.ext
    match ax with
    | ⟨0, _⟩ => exact nt_lhs0 w _ _
    | ⟨1, _⟩ => exact (nt_lhs1 w _ _).trans hc
  have hr : (dNT w).rhsIdx (ix2 a b) ((contrEquiv1 (dNT w) k rfl rfl).symm c) = ix2 b c := by
    funext ax; apply Fin.ext
    match ax with
    | ⟨0, _⟩ => exact nt_rhs0 w _ _
    | ⟨1, _⟩ => exact (nt_rhs1 w _ _).trans hc
  rw [hl, hr]

/-- A product of rows against columns into the zero array: entry (a, b) is the sum over the k shared coordinates of
    A (a, c) · B (c, b). -/
theorem matmulNN_apply (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (dNN w) prec A B (constant (F := Ideal) ⟨2, ![m, n]⟩ .f32 0x00000000#32) (ix2 a b)
      = ∑ c : Fin k, A (ix2 a c) * B (ix2 c b) := by
  show FloatOps.matmul (dNN w) prec A B (constant (F := Ideal) ⟨2, ![m, n]⟩ .f32 0x00000000#32) (ix2 a b) = _
  rw [Ideal.matmul_constant_zero_apply, ← Equiv.sum_comp (contrEquiv1 (dNN w) k rfl rfl).symm]
  refine Finset.sum_congr rfl fun c _ => ?_
  have hc := contrEquiv1_symm_val (dNN w) k rfl rfl c
  have hl : (dNN w).lhsIdx (ix2 a b) ((contrEquiv1 (dNN w) k rfl rfl).symm c) = ix2 a c := by
    funext ax; apply Fin.ext
    match ax with
    | ⟨0, _⟩ => exact nn_lhs0 w _ _
    | ⟨1, _⟩ => exact (nn_lhs1 w _ _).trans hc
  have hr : (dNN w).rhsIdx (ix2 a b) ((contrEquiv1 (dNN w) k rfl rfl).symm c) = ix2 c b := by
    funext ax; apply Fin.ext
    match ax with
    | ⟨0, _⟩ => exact (nn_rhs0 w _ _).trans hc
    | ⟨1, _⟩ => exact nn_rhs1 w _ _
  rw [hl, hr]

end Products

end AttnPayload

open AttnPayload in
/-- The first launch's stored block, at row p and feature c, is the attention row of the query block's row p: with
    the logits s k = ∑ d, x0 (p, d) · x1 (k, d) and their supremum M over the 8192 keys, it is
    (∑ k, exp (s k − M) · x2 (k, c)) / (∑ k, exp (s k − M)). -/
theorem pay0_apply (x0 : Vec Ideal Cert.KernelIdeal.S128x64 .f32) (x1 x2 : Vec Ideal Cert.KernelIdeal.S8192x64 .f32)
    (p : Fin 128) (c : Fin 64) :
    Cert.KernelIdeal.Gen.k0_pay1 (F := Ideal) x0 x1 x2 (ix2 p c) = attnRow (fun d => x0 (ix2 p d)) x1 x2 c := by
  unfold Cert.KernelIdeal.Gen.k0_pay1
  simp only [shapeCast_self]
  delta Cert.KernelIdeal.dot_S128x8192_S8192x64_S128x64_1_0_0_1_n_n Cert.KernelIdeal.dot_S128x64_S8192x64_S128x8192_1_1_0_0_n_n
  have hSv : ∀ k : Fin 8192,
      matmul (dNT Cert.KernelIdeal.Gen.dot_S128x64_S8192x64_S128x8192_1_1_0_0_n_n_wf) (some ContractPrecision.fp32) x0 x1
        (constant (F := Ideal) Cert.KernelIdeal.S128x8192 .f32 0x00000000#32) (ix2 p k)
        = logitRow (fun d => x0 (ix2 p d)) x1 k := fun k => matmulNT_apply _ _ _ _ p k
  generalize matmul (dNT Cert.KernelIdeal.Gen.dot_S128x64_S8192x64_S128x8192_1_1_0_0_n_n_wf) (some ContractPrecision.fp32) x0 x1
      (constant (F := Ideal) Cert.KernelIdeal.S128x8192 .f32 0x00000000#32) = S at hSv ⊢
  rw [divf_apply, matmulNN_apply, keepdims_apply, kernelRowSum_apply]
  simp only [expv_apply, subf_apply, keepdims_apply]
  rw [kernelRowMax_apply]
  simp only [hSv]
  rfl

/-- The second launch's stored block is the same function of its three operands as the first's: at row p and
    feature c, the attention row of the query block's row p. -/
theorem pay1_apply (x0 : Vec Ideal Cert.KernelIdeal.S128x64 .f32) (x1 x2 : Vec Ideal Cert.KernelIdeal.S8192x64 .f32)
    (p : Fin 128) (c : Fin 64) :
    Cert.KernelIdeal.Gen.k1_pay1 (F := Ideal) x0 x1 x2 (ix2 p c) = attnRow (fun d => x0 (ix2 p d)) x1 x2 c := by
  show Cert.KernelIdeal.Gen.k0_pay1 (F := Ideal) x0 x1 x2 (ix2 p c) = _
  exact pay0_apply x0 x1 x2 p c

end Cert.BGCF

end
-- ==== Proof.AttnRegion.lean ====
/-
  From blocks to the array: the output array of each of the two attention regions as one function of its three input
  arrays.

  A region runs its body at 64 grid points. Point t reads rows 128·t … 128·t + 127 of the query array and the whole key
  and value arrays, and writes rows 128·t … 128·t + 127 of the output array. Row r of the attention depends on row r of
  the queries only, so what point t writes is block t of the whole-array attention `attnK` of the three arrays; the 64
  blocks of 128 rows tile the 8192 rows, so the output array ends holding `attnK` of the three input arrays.
-/
import proofs.«420976_j38130719654352_3_alg».proof.Proof.Spec
import proofs.«420976_j38130719654352_3_alg».proof.Proof.AttnPayload
import proofs.«420976_j38130719654352_3_alg».proof.Proof.Gen.KernelIdeal.Frame
import Idealize.ShloMosaic.Lib.Pipeline.Value
import Idealize.ShloMosaic.Lib.ValueIdx

noncomputable section

namespace Cert.BGCF

open Idealize.ShloMosaic Idealize.ShloMosaic.ValueIdx Cert.ReferenceIdeal Cert.ReferenceIdeal.Facts₀
open Idealize.ShloMosaic.TcCoe
open scoped BigOperators

/-- The zero offsets of a whole-buffer access, as a constant function. -/
theorem zeroOff : (![0, 0] : Fin 2 → Nat) = fun _ => 0 := funext fun a => by fin_cases a <;> rfl

/-- One grid point of an attention region, over plain arrays. Let `pay` be a body whose stored entry `(p, c)` is the
    attention of row `p` of its query block against its key and value blocks. If the query block `x0` is rows
    `128·t … 128·t + 127` of `Q` and the key and value blocks are all of `K` and `VW`, then entry `j` of what the body
    stores is entry `(128·t + j₀, j₁)` of the whole-array attention `attnK Q K VW`: row `r` of the attention depends on
    row `r` of the queries only. -/
theorem point_apply
    (pay : Vec Ideal KernelIdeal.S128x64 .f32 → Vec Ideal KernelIdeal.S8192x64 .f32 → Vec Ideal KernelIdeal.S8192x64 .f32
      → FVec Ideal KernelIdeal.S128x64 .f32)
    (hpay : ∀ (x0 : Vec Ideal KernelIdeal.S128x64 .f32) (x1 x2 : Vec Ideal KernelIdeal.S8192x64 .f32) (p : Fin 128) (c : Fin 64),
      pay x0 x1 x2 (ix2 p c) = attnRow (fun d => x0 (ix2 p d)) x1 x2 c)
    (x0 : Vec Ideal KernelIdeal.S128x64 .f32) (x1 x2 : Vec Ideal KernelIdeal.S8192x64 .f32) (Q K VW : Mat) (t : ℕ)
    (hq : ∀ (p : Fin 128) (r : Fin 8192) (d : Fin 64), r.val = t * 128 + 1 * p.val → x0 (ix2 p d) = Q (ix2 r d))
    (hk : x1 = K) (hv : x2 = VW) (j : KernelIdeal.S128x64.Idx) (i : S8192x64.Idx)
    (hi0 : (i 0).val = t * 128 + 1 * (j 0).val) (hi1 : (i 1).val = 0 * 64 + 1 * (j 1).val) :
    pay x0 x1 x2 j = attnK Q K VW i := by
  obtain ⟨p, q, rfl⟩ : ∃ (p : Fin 128) (q : Fin 64), j = ix2 p q := ⟨j 0, j 1, eq_ix2 j⟩
  obtain ⟨r, s, rfl⟩ : ∃ (r : Fin 8192) (s : Fin 64), i = ix2 r s := ⟨i 0, i 1, eq_ix2 i⟩
  subst hk hv
  have hs : s = q := Fin.ext (by
    have e : s.val = 0 * 64 + 1 * q.val := hi1
    omega)
  subst hs
  have hr : r.val = t * 128 + 1 * p.val := hi0
  rw [hpay, attnK_apply]
  exact congrArg (fun row => attnRow row x1 x2 s) (funext fun d => hq p r d hr)

/-! ## Region 0: queries `%52`, keys `%53`, values `%55`, output `%60` -/

open Cert.KernelIdeal in
/-- The printed index maps of region 0, decided once over the 64 grid points: the query and output blocks of point `t`
    are block `(t, 0)`, the key and value blocks block `(0, 0)`. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

open Cert.KernelIdeal in
/-- The query block of point `t` is rows `128·t … 128·t + 127` of the query array. -/
theorem qblock0 (V : (c : Dev KernelIdeal.nD) → (b : Ref KernelIdeal.sig .tc) → Buf (Elt Ideal) ((c : Thread KernelIdeal.nD KernelIdeal.τ).loc b)) (c : Dev KernelIdeal.nD) (t : Fin cfg0.N)
    (p : Fin 128) (r : Fin 8192) (d : Fin 64) (hr : r.val = t.val * 128 + 1 * p.val) :
    (Gen.iblk0 (F := Ideal) V c 0 t : Vec Ideal KernelIdeal.S128x64 .f32) (ix2 p d)
      = (V c main_v52 : KernelIdeal.S8192x64.Idx → Elt Ideal .f32) (ix2 r d) := by
  obtain ⟨e0, e1, -⟩ := blockIdx0 t
  unfold Gen.iblk0
  rw [View.read_apply]
  show V c main_v52 _ = V c main_v52 _
  congr 1
  funext a
  apply Fin.ext
  match a with
  | ⟨0, _⟩ => show win0_0.index t (0 : Fin 2) * 128 + 1 * p.val = r.val; rw [e0, hr]
  | ⟨1, _⟩ => show win0_0.index t (1 : Fin 2) * 64 + 1 * d.val = d.val; rw [e1]; omega

open Cert.KernelIdeal in
/-- The key block of every point is the whole key array. -/
theorem kblock0 (V : (c : Dev KernelIdeal.nD) → (b : Ref KernelIdeal.sig .tc) → Buf (Elt Ideal) ((c : Thread KernelIdeal.nD KernelIdeal.τ).loc b)) (c : Dev KernelIdeal.nD) (t : Fin cfg0.N) :
    (Gen.iblk0 (F := Ideal) V c 1 t : Vec Ideal KernelIdeal.S8192x64 .f32) = V c main_v53 := by
  obtain ⟨-, -, e0, e1, -⟩ := blockIdx0 t
  funext y
  unfold Gen.iblk0
  rw [View.read_apply]
  show V c main_v53 _ = V c main_v53 y
  congr 1
  funext a
  apply Fin.ext
  match a with
  | ⟨0, _⟩ => show win0_1.index t (0 : Fin 2) * 8192 + 1 * (y 0).val = (y 0).val; rw [e0]; omega
  | ⟨1, _⟩ => show win0_1.index t (1 : Fin 2) * 64 + 1 * (y 1).val = (y 1).val; rw [e1]; omega

open Cert.KernelIdeal in
/-- The value block of every point is the whole value array. -/
theorem vblock0 (V : (c : Dev KernelIdeal.nD) → (b : Ref KernelIdeal.sig .tc) → Buf (Elt Ideal) ((c : Thread KernelIdeal.nD KernelIdeal.τ).loc b)) (c : Dev KernelIdeal.nD) (t : Fin cfg0.N) :
    (Gen.iblk0 (F := Ideal) V c 2 t : Vec Ideal KernelIdeal.S8192x64 .f32) = V c main_v55 := by
  obtain ⟨-, -, -, -, e0, e1, -⟩ := blockIdx0 t
  funext y
  unfold Gen.iblk0
  rw [View.read_apply]
  show V c main_v55 _ = V c main_v55 y
  congr 1
  funext a
  apply Fin.ext
  match a with
  | ⟨0, _⟩ => show win0_2.index t (0 : Fin 2) * 8192 + 1 * (y 0).val = (y 0).val; rw [e0]; omega
  | ⟨1, _⟩ => show win0_2.index t (1 : Fin 2) * 64 + 1 * (y 1).val = (y 1).val; rw [e1]; omega

open Cert.KernelIdeal in
/-- What point `t` of region 0 writes back is block `t` of the whole-array attention of the three input arrays as the
    region finds them: the body stores its whole output buffer once, from whole-buffer loads of its three input blocks. -/
theorem written0 (V : (c : Dev KernelIdeal.nD) → (b : Ref KernelIdeal.sig .tc) → Buf (Elt Ideal) ((c : Thread KernelIdeal.nD KernelIdeal.τ).loc b)) (c : Dev KernelIdeal.nD) (t : Fin cfg0.N) :
    (Gen.dat0 (F := Ideal) V c).flushed 3 t
      = ((cfg0.win 3).blk t).view.read (Elt Ideal) (attnK (V c main_v52) (V c main_v53) (V c main_v55)) := by
  show (cfg0.win 3).cut (grid0.coords t) ((Gen.dat0 V c).after 3 t) = _
  rw [Gen.after0_3]
  unfold Gen.out0_3
  rw [View.canon_unit_zero zeroOff]
  simp only [View.ld_unit_zero (S := KernelIdeal.S128x64) zeroOff, View.ld_unit_zero (S := KernelIdeal.S8192x64) zeroOff]
  obtain ⟨-, -, -, -, -, -, e0, e1⟩ := blockIdx0 t
  funext j
  show Gen.k0_pay1 (F := Ideal) (Gen.iblk0 V c 0 t) (Gen.iblk0 V c 1 t) (Gen.iblk0 V c 2 t) j
    = attnK (V c main_v52) (V c main_v53) (V c main_v55) (((cfg0.win 3).blk t).view.emb j)
  refine point_apply (Gen.k0_pay1 (F := Ideal)) pay0_apply (Gen.iblk0 V c 0 t) (Gen.iblk0 V c 1 t) (Gen.iblk0 V c 2 t)
    (V c main_v52) (V c main_v53) (V c main_v55) t.val
    (fun p r d hr => qblock0 V c t p r d hr) (kblock0 V c t) (vblock0 V c t) j (((cfg0.win 3).blk t).view.emb j) ?_ ?_
  · show win0_3.index t (0 : Fin 2) * 128 + 1 * (j 0).val = t.val * 128 + 1 * (j 0).val
    rw [e0]
  · show win0_3.index t (1 : Fin 2) * 64 + 1 * (j 1).val = 0 * 64 + 1 * (j 1).val
    rw [e1]

open Cert.KernelIdeal in
/-- An index of the output array is in point `t`'s block iff each coordinate is in the block's range on its axis. -/
theorem mem_block0 (t : Fin cfg0.N) (i : KernelIdeal.S8192x64.Idx) :
    i ∈ ((cfg0.win 3).blk t).view.set ↔ ∀ a : Fin 2, win0_3.index t a * KernelIdeal.S128x64.size a ≤ (i a).val
      ∧ (i a).val < win0_3.index t a * KernelIdeal.S128x64.size a + KernelIdeal.S128x64.size a := by
  show i ∈ ((View.whole KernelIdeal.main_v60).slice (win0_3.rect t)).set ↔ _
  rw [View.set_slice_whole, Rect.mem_set_unit]
  exact Iff.rfl

open Cert.KernelIdeal in
/-- After region 0 its output array is the whole-array attention of the three input arrays: the 64 points' blocks of 128
    rows tile the 8192 rows (row `r` is in the block of point `r / 128`), and each point writes its block of `attnK`. -/
theorem region0_value (V : (c : Dev KernelIdeal.nD) → (b : Ref KernelIdeal.sig .tc) → Buf (Elt Ideal) ((c : Thread KernelIdeal.nD KernelIdeal.τ).loc b)) (c : Dev KernelIdeal.nD) :
    (Gen.dat0 (F := Ideal) V c).arrAt 3 cfg0.N = attnK (V c main_v52) (V c main_v53) (V c main_v55) := by
  refine (Gen.dat0 (F := Ideal) V c).arrAt_eq_of_cover 3 (attnK (V c main_v52) (V c main_v53) (V c main_v55))
    (fun t _ => written0 V c t) fun i => ?_
  have hi0 : (i 0).val < 8192 := (i 0).isLt
  have hi1 : (i 1).val < 64 := (i 1).isLt
  have ht : (i 0).val / 128 < cfg0.N := by
    show (i 0).val / 128 < 64
    omega
  obtain ⟨-, -, -, -, -, -, e0, e1⟩ := blockIdx0 ⟨(i 0).val / 128, ht⟩
  refine ⟨⟨(i 0).val / 128, ht⟩, Gen.flush0_3 _, ?_⟩
  rw [mem_block0]
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_3.index ⟨(i 0).val / 128, ht⟩ (1 : Fin 2) * 64 ≤ (i 1).val
      ∧ (i 1).val < win0_3.index ⟨(i 0).val / 128, ht⟩ (1 : Fin 2) * 64 + 64
    rw [e1]
    omega

/-! ## Region 1: queries `%56`, keys `%57`, values `%59`, output `%61` -/

open Cert.KernelIdeal in
/-- The printed index maps of region 1, decided once over the 64 grid points: the query and output blocks of point `t`
    are block `(t, 0)`, the key and value blocks block `(0, 0)`. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

open Cert.KernelIdeal in
/-- The query block of point `t` is rows `128·t … 128·t + 127` of the query array. -/
theorem qblock1 (V : (c : Dev KernelIdeal.nD) → (b : Ref KernelIdeal.sig .tc) → Buf (Elt Ideal) ((c : Thread KernelIdeal.nD KernelIdeal.τ).loc b)) (c : Dev KernelIdeal.nD) (t : Fin cfg1.N)
    (p : Fin 128) (r : Fin 8192) (d : Fin 64) (hr : r.val = t.val * 128 + 1 * p.val) :
    (Gen.iblk1 (F := Ideal) V c 0 t : Vec Ideal KernelIdeal.S128x64 .f32) (ix2 p d)
      = (V c main_v56 : KernelIdeal.S8192x64.Idx → Elt Ideal .f32) (ix2 r d) := by
  obtain ⟨e0, e1, -⟩ := blockIdx1 t
  unfold Gen.iblk1
  rw [View.read_apply]
  show V c main_v56 _ = V c main_v56 _
  congr 1
  funext a
  apply Fin.ext
  match a with
  | ⟨0, _⟩ => show win1_0.index t (0 : Fin 2) * 128 + 1 * p.val = r.val; rw [e0, hr]
  | ⟨1, _⟩ => show win1_0.index t (1 : Fin 2) * 64 + 1 * d.val = d.val; rw [e1]; omega

open Cert.KernelIdeal in
/-- The key block of every point is the whole key array. -/
theorem kblock1 (V : (c : Dev KernelIdeal.nD) → (b : Ref KernelIdeal.sig .tc) → Buf (Elt Ideal) ((c : Thread KernelIdeal.nD KernelIdeal.τ).loc b)) (c : Dev KernelIdeal.nD) (t : Fin cfg1.N) :
    (Gen.iblk1 (F := Ideal) V c 1 t : Vec Ideal KernelIdeal.S8192x64 .f32) = V c main_v57 := by
  obtain ⟨-, -, e0, e1, -⟩ := blockIdx1 t
  funext y
  unfold Gen.iblk1
  rw [View.read_apply]
  show V c main_v57 _ = V c main_v57 y
  congr 1
  funext a
  apply Fin.ext
  match a with
  | ⟨0, _⟩ => show win1_1.index t (0 : Fin 2) * 8192 + 1 * (y 0).val = (y 0).val; rw [e0]; omega
  | ⟨1, _⟩ => show win1_1.index t (1 : Fin 2) * 64 + 1 * (y 1).val = (y 1).val; rw [e1]; omega

open Cert.KernelIdeal in
/-- The value block of every point is the whole value array. -/
theorem vblock1 (V : (c : Dev KernelIdeal.nD) → (b : Ref KernelIdeal.sig .tc) → Buf (Elt Ideal) ((c : Thread KernelIdeal.nD KernelIdeal.τ).loc b)) (c : Dev KernelIdeal.nD) (t : Fin cfg1.N) :
    (Gen.iblk1 (F := Ideal) V c 2 t : Vec Ideal KernelIdeal.S8192x64 .f32) = V c main_v59 := by
  obtain ⟨-, -, -, -, e0, e1, -⟩ := blockIdx1 t
  funext y
  unfold Gen.iblk1
  rw [View.read_apply]
  show V c main_v59 _ = V c main_v59 y
  congr 1
  funext a
  apply Fin.ext
  match a with
  | ⟨0, _⟩ => show win1_2.index t (0 : Fin 2) * 8192 + 1 * (y 0).val = (y 0).val; rw [e0]; omega
  | ⟨1, _⟩ => show win1_2.index t (1 : Fin 2) * 64 + 1 * (y 1).val = (y 1).val; rw [e1]; omega

open Cert.KernelIdeal in
/-- What point `t` of region 1 writes back is block `t` of the whole-array attention of the three input arrays as the
    region finds them: the body stores its whole output buffer once, from whole-buffer loads of its three input blocks. -/
theorem written1 (V : (c : Dev KernelIdeal.nD) → (b : Ref KernelIdeal.sig .tc) → Buf (Elt Ideal) ((c : Thread KernelIdeal.nD KernelIdeal.τ).loc b)) (c : Dev KernelIdeal.nD) (t : Fin cfg1.N) :
    (Gen.dat1 (F := Ideal) V c).flushed 3 t
      = ((cfg1.win 3).blk t).view.read (Elt Ideal) (attnK (V c main_v56) (V c main_v57) (V c main_v59)) := by
  show (cfg1.win 3).cut (grid1.coords t) ((Gen.dat1 V c).after 3 t) = _
  rw [Gen.after1_3]
  unfold Gen.out1_3
  rw [View.canon_unit_zero zeroOff]
  simp only [View.ld_unit_zero (S := KernelIdeal.S128x64) zeroOff, View.ld_unit_zero (S := KernelIdeal.S8192x64) zeroOff]
  obtain ⟨-, -, -, -, -, -, e0, e1⟩ := blockIdx1 t
  funext j
  show Gen.k1_pay1 (F := Ideal) (Gen.iblk1 V c 0 t) (Gen.iblk1 V c 1 t) (Gen.iblk1 V c 2 t) j
    = attnK (V c main_v56) (V c main_v57) (V c main_v59) (((cfg1.win 3).blk t).view.emb j)
  refine point_apply (Gen.k1_pay1 (F := Ideal)) pay1_apply (Gen.iblk1 V c 0 t) (Gen.iblk1 V c 1 t) (Gen.iblk1 V c 2 t)
    (V c main_v56) (V c main_v57) (V c main_v59) t.val
    (fun p r d hr => qblock1 V c t p r d hr) (kblock1 V c t) (vblock1 V c t) j (((cfg1.win 3).blk t).view.emb j) ?_ ?_
  · show win1_3.index t (0 : Fin 2) * 128 + 1 * (j 0).val = t.val * 128 + 1 * (j 0).val
    rw [e0]
  · show win1_3.index t (1 : Fin 2) * 64 + 1 * (j 1).val = 0 * 64 + 1 * (j 1).val
    rw [e1]

open Cert.KernelIdeal in
/-- An index of the output array is in point `t`'s block iff each coordinate is in the block's range on its axis. -/
theorem mem_block1 (t : Fin cfg1.N) (i : KernelIdeal.S8192x64.Idx) :
    i ∈ ((cfg1.win 3).blk t).view.set ↔ ∀ a : Fin 2, win1_3.index t a * KernelIdeal.S128x64.size a ≤ (i a).val
      ∧ (i a).val < win1_3.index t a * KernelIdeal.S128x64.size a + KernelIdeal.S128x64.size a := by
  show i ∈ ((View.whole KernelIdeal.main_v61).slice (win1_3.rect t)).set ↔ _
  rw [View.set_slice_whole, Rect.mem_set_unit]
  exact Iff.rfl

open Cert.KernelIdeal in
/-- After region 1 its output array is the whole-array attention of the three input arrays: the 64 points' blocks of 128
    rows tile the 8192 rows (row `r` is in the block of point `r / 128`), and each point writes its block of `attnK`. -/
theorem region1_value (V : (c : Dev KernelIdeal.nD) → (b : Ref KernelIdeal.sig .tc) → Buf (Elt Ideal) ((c : Thread KernelIdeal.nD KernelIdeal.τ).loc b)) (c : Dev KernelIdeal.nD) :
    (Gen.dat1 (F := Ideal) V c).arrAt 3 cfg1.N = attnK (V c main_v56) (V c main_v57) (V c main_v59) := by
  refine (Gen.dat1 (F := Ideal) V c).arrAt_eq_of_cover 3 (attnK (V c main_v56) (V c main_v57) (V c main_v59))
    (fun t _ => written1 V c t) fun i => ?_
  have hi0 : (i 0).val < 8192 := (i 0).isLt
  have hi1 : (i 1).val < 64 := (i 1).isLt
  have ht : (i 0).val / 128 < cfg1.N := by
    show (i 0).val / 128 < 64
    omega
  obtain ⟨-, -, -, -, -, -, e0, e1⟩ := blockIdx1 ⟨(i 0).val / 128, ht⟩
  refine ⟨⟨(i 0).val / 128, ht⟩, Gen.flush1_3 _, ?_⟩
  rw [mem_block1]
  intro a
  match a with
  | ⟨0, _⟩ =>
    show win1_3.index ⟨(i 0).val / 128, ht⟩ (0 : Fin 2) * 128 ≤ (i 0).val
      ∧ (i 0).val < win1_3.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win1_3.index ⟨(i 0).val / 128, ht⟩ (1 : Fin 2) * 64 ≤ (i 1).val
      ∧ (i 1).val < win1_3.index ⟨(i 0).val / 128, ht⟩ (1 : Fin 2) * 64 + 64
    rw [e1]
    omega

end Cert.BGCF

end
-- ==== Proof.KernelValue.lean ====
/-
  The kernel program's three result buffers, read back through its host operations and its two attention regions.

  The program runs a first stretch of host operations (four sparse aggregations S1 … S4 of the raw embeddings and the
  products that feed the attentions), two attention regions (user side, then item side), and a last stretch (the two
  mean branches, the concatenations, the batch gathers, tanh and the 5-norm division). Each buffer the last stretch reads
  is named here as a function of the 24 argument arrays, stretch by stretch; the three results are then the shared
  epilogue `p5norm` of `kOut0`, `kOut1`, `kOut2`. No algebra happens here: every step is the definition of an operation.
-/
import proofs.«420976_j38130719654352_3_alg».proof.Proof.Values
import proofs.«420976_j38130719654352_3_alg».proof.Proof.AttnRegion
import proofs.«420976_j38130719654352_3_alg».proof.Proof.Gen.KernelIdeal.Frame
import Idealize.ShloMosaic.Lib.StableHlo.Run

noncomputable section

namespace Cert.BGCF

open Idealize.ShloMosaic Idealize.ShloMosaic.ValueIdx Idealize.ShloMosaic.TcCoe Cert.KernelIdeal
open scoped BigOperators

/-- The 24 argument arrays of the kernel program, read off the launch memory of core `c`. -/
def kArgs (m : (ℓ : Loc nD τ sig) → Buf (Elt Ideal) ℓ) (c : Dev nD) : Args where
  user := m ((c : Thread nD τ).loc main_arg0)
  item := m ((c : Thread nD τ).loc main_arg1)
  wAu := m ((c : Thread nD τ).loc main_arg2)
  wAi := m ((c : Thread nD τ).loc main_arg3)
  wMu := m ((c : Thread nD τ).loc main_arg4)
  wMi := m ((c : Thread nD τ).loc main_arg5)
  wOu := m ((c : Thread nD τ).loc main_arg6)
  wOi := m ((c : Thread nD τ).loc main_arg7)
  nSu := m ((c : Thread nD τ).loc main_arg8)
  nSi := m ((c : Thread nD τ).loc main_arg9)
  nOu := m ((c : Thread nD τ).loc main_arg10)
  nOi := m ((c : Thread nD τ).loc main_arg11)
  adjVal := m ((c : Thread nD τ).loc main_arg12)
  obsVal := m ((c : Thread nD τ).loc main_arg13)
  users := m ((c : Thread nD τ).loc main_arg14)
  pos := m ((c : Thread nD τ).loc main_arg15)
  neg := m ((c : Thread nD τ).loc main_arg16)
  oUsers := m ((c : Thread nD τ).loc main_arg17)
  oPos := m ((c : Thread nD τ).loc main_arg18)
  oNeg := m ((c : Thread nD τ).loc main_arg19)
  adjRow := m ((c : Thread nD τ).loc main_arg20)
  adjCol := m ((c : Thread nD τ).loc main_arg21)
  obsRow := m ((c : Thread nD τ).loc main_arg22)
  obsCol := m ((c : Thread nD τ).loc main_arg23)

/-! ## The first stretch of host operations: the four aggregations and the attention regions' operands -/

set_option maxRecDepth 8192 in
/-- After the first stretch the first aggregation buffer holds A·item. -/
theorem W1_v12 (m : (ℓ : Loc nD τ sig) → Buf (Elt Ideal) ℓ) (ρ : Dev nD → PrngReg) (c : Dev nD) :
    Gen.W1 (F := Ideal) m ρ c (Proc.devRef .tc main_v12) = (kArgs m c).S1 := by
  show StableHlo.after Gen.hostOps0 _ (Proc.devRef .tc main_v12) = _
  after_results_simp
  rfl

set_option maxRecDepth 8192 in
/-- After the first stretch the second aggregation buffer holds Aᵀ·user. -/
theorem W1_v25 (m : (ℓ : Loc nD τ sig) → Buf (Elt Ideal) ℓ) (ρ : Dev nD → PrngReg) (c : Dev nD) :
    Gen.W1 (F := Ideal) m ρ c (Proc.devRef .tc main_v25) = (kArgs m c).S2 := by
  show StableHlo.after Gen.hostOps0 _ (Proc.devRef .tc main_v25) = _
  after_results_simp
  rfl

set_option maxRecDepth 8192 in
/-- After the first stretch the third aggregation buffer holds A_o·item. -/
theorem W1_v38 (m : (ℓ : Loc nD τ sig) → Buf (Elt Ideal) ℓ) (ρ : Dev nD → PrngReg) (c : Dev nD) :
    Gen.W1 (F := Ideal) m ρ c (Proc.devRef .tc main_v38) = (kArgs m c).S3 := by
  show StableHlo.after Gen.hostOps0 _ (Proc.devRef .tc main_v38) = _
  after_results_simp
  rfl

set_option maxRecDepth 8192 in
/-- After the first stretch the fourth aggregation buffer holds A_oᵀ·user. -/
theorem W1_v51 (m : (ℓ : Loc nD τ sig) → Buf (Elt Ideal) ℓ) (ρ : Dev nD → PrngReg) (c : Dev nD) :
    Gen.W1 (F := Ideal) m ρ c (Proc.devRef .tc main_v51) = (kArgs m c).S4 := by
  show StableHlo.after Gen.hostOps0 _ (Proc.devRef .tc main_v51) = _
  after_results_simp
  rfl

set_option maxRecDepth 8192 in
/-- The user attention's queries: (A·item)·W. -/
theorem W1_v52 (m : (ℓ : Loc nD τ sig) → Buf (Elt Ideal) ℓ) (ρ : Dev nD → PrngReg) (c : Dev nD) :
    Gen.W1 (F := Ideal) m ρ c (Proc.devRef .tc main_v52) = mm (kArgs m c).S1 (kArgs m c).wAu := by
  show StableHlo.after Gen.hostOps0 _ (Proc.devRef .tc main_v52) = _
  after_results_simp
  rfl

set_option maxRecDepth 8192 in
/-- The user attention's keys: (Aᵀ·user)·W. -/
theorem W1_v53 (m : (ℓ : Loc nD τ sig) → Buf (Elt Ideal) ℓ) (ρ : Dev nD → PrngReg) (c : Dev nD) :
    Gen.W1 (F := Ideal) m ρ c (Proc.devRef .tc main_v53) = mm (kArgs m c).S2 (kArgs m c).wAu := by
  show StableHlo.after Gen.hostOps0 _ (Proc.devRef .tc main_v53) = _
  after_results_simp
  rfl

set_option maxRecDepth 8192 in
/-- The user attention's values: item·W·W. -/
theorem W1_v55 (m : (ℓ : Loc nD τ sig) → Buf (Elt Ideal) ℓ) (ρ : Dev nD → PrngReg) (c : Dev nD) :
    Gen.W1 (F := Ideal) m ρ c (Proc.devRef .tc main_v55) = mm (mm (kArgs m c).item (kArgs m c).wAu) (kArgs m c).wAu := by
  show StableHlo.after Gen.hostOps0 _ (Proc.devRef .tc main_v55) = _
  after_results_simp
  rfl

set_option maxRecDepth 8192 in
/-- The item attention's queries: (Aᵀ·user)·W. -/
theorem W1_v56 (m : (ℓ : Loc nD τ sig) → Buf (Elt Ideal) ℓ) (ρ : Dev nD → PrngReg) (c : Dev nD) :
    Gen.W1 (F := Ideal) m ρ c (Proc.devRef .tc main_v56) = mm (kArgs m c).S2 (kArgs m c).wAi := by
  show StableHlo.after Gen.hostOps0 _ (Proc.devRef .tc main_v56) = _
  after_results_simp
  rfl

set_option maxRecDepth 8192 in
/-- The item attention's keys: (A·item)·W. -/
theorem W1_v57 (m : (ℓ : Loc nD τ sig) → Buf (Elt Ideal) ℓ) (ρ : Dev nD → PrngReg) (c : Dev nD) :
    Gen.W1 (F := Ideal) m ρ c (Proc.devRef .tc main_v57) = mm (kArgs m c).S1 (kArgs m c).wAi := by
  show StableHlo.after Gen.hostOps0 _ (Proc.devRef .tc main_v57) = _
  after_results_simp
  rfl

set_option maxRecDepth 8192 in
/-- The item attention's values: user·W·W. -/
theorem W1_v59 (m : (ℓ : Loc nD τ sig) → Buf (Elt Ideal) ℓ) (ρ : Dev nD → PrngReg) (c : Dev nD) :
    Gen.W1 (F := Ideal) m ρ c (Proc.devRef .tc main_v59) = mm (mm (kArgs m c).user (kArgs m c).wAi) (kArgs m c).wAi := by
  show StableHlo.after Gen.hostOps0 _ (Proc.devRef .tc main_v59) = _
  after_results_simp
  rfl

/-! ## The buffers the last stretch reads, as the second attention region leaves them -/

/-- A buffer that is none of the two attention regions' arrays is, after both, as the first stretch left it. -/
theorem W3_eq_W1 (m : (ℓ : Loc nD τ sig) → Buf (Elt Ideal) ℓ) (ρ : Dev nD → PrngReg) (c : Dev nD) (b : Ref sig .tc)
    (h0 : ∀ w, Pipeline.arrRef spec0 w ≠ b) (h1 : ∀ w, Pipeline.arrRef spec1 w ≠ b) :
    Gen.W3 (F := Ideal) m ρ c (Proc.devRef .tc b) = Gen.W1 (F := Ideal) m ρ c (Proc.devRef .tc b) :=
  (Gen.W3_of_ne m ρ c b h1).trans (Gen.W2_of_ne m ρ c b h0)

set_option maxRecDepth 8192 in
/-- Argument 4 reaches the last stretch as launched: no operation and no region writes it. -/
theorem W3_arg4 (m : (ℓ : Loc nD τ sig) → Buf (Elt Ideal) ℓ) (ρ : Dev nD → PrngReg) (c : Dev nD) :
    Gen.W3 (F := Ideal) m ρ c (Proc.devRef .tc main_arg4) = (kArgs m c).wMu := by
  rw [W3_eq_W1 m ρ c main_arg4 (by decide) (by decide)]
  show StableHlo.after Gen.hostOps0 _ (Proc.devRef .tc main_arg4) = _
  after_results_simp
  rfl

set_option maxRecDepth 8192 in
/-- Argument 5 reaches the last stretch as launched: no operation and no region writes it. -/
theorem W3_arg5 (m : (ℓ : Loc nD τ sig) → Buf (Elt Ideal) ℓ) (ρ : Dev nD → PrngReg) (c : Dev nD) :
    Gen.W3 (F := Ideal) m ρ c (Proc.devRef .tc main_arg5) = (kArgs m c).wMi := by
  rw [W3_eq_W1 m ρ c main_arg5 (by decide) (by decide)]
  show StableHlo.after Gen.hostOps0 _ (Proc.devRef .tc main_arg5) = _
  after_results_simp
  rfl

set_option maxRecDepth 8192 in
/-- Argument 6 reaches the last stretch as launched: no operation and no region writes it. -/
theorem W3_arg6 (m : (ℓ : Loc nD τ sig) → Buf (Elt Ideal) ℓ) (ρ : Dev nD → PrngReg) (c : Dev nD) :
    Gen.W3 (F := Ideal) m ρ c (Proc.devRef .tc main_arg6) = (kArgs m c).wOu := by
  rw [W3_eq_W1 m ρ c main_arg6 (by decide) (by decide)]
  show StableHlo.after Gen.hostOps0 _ (Proc.devRef .tc main_arg6) = _
  after_results_simp
  rfl

set_option maxRecDepth 8192 in
/-- Argument 7 reaches the last stretch as launched: no operation and no region writes it. -/
theorem W3_arg7 (m : (ℓ : Loc nD τ sig) → Buf (Elt Ideal) ℓ) (ρ : Dev nD → PrngReg) (c : Dev nD) :
    Gen.W3 (F := Ideal) m ρ c (Proc.devRef .tc main_arg7) = (kArgs m c).wOi := by
  rw [W3_eq_W1 m ρ c main_arg7 (by decide) (by decide)]
  show StableHlo.after Gen.hostOps0 _ (Proc.devRef .tc main_arg7) = _
  after_results_simp
  rfl

set_option maxRecDepth 8192 in
/-- Argument 8 reaches the last stretch as launched: no operation and no region writes it. -/
theorem W3_arg8 (m : (ℓ : Loc nD τ sig) → Buf (Elt Ideal) ℓ) (ρ : Dev nD → PrngReg) (c : Dev nD) :
    Gen.W3 (F := Ideal) m ρ c (Proc.devRef .tc main_arg8) = (kArgs m c).nSu := by
  rw [W3_eq_W1 m ρ c main_arg8 (by decide) (by decide)]
  show StableHlo.after Gen.hostOps0 _ (Proc.devRef .tc main_arg8) = _
  after_results_simp
  rfl

set_option maxRecDepth 8192 in
/-- Argument 9 reaches the last stretch as launched: no operation and no region writes it. -/
theorem W3_arg9 (m : (ℓ : Loc nD τ sig) → Buf (Elt Ideal) ℓ) (ρ : Dev nD → PrngReg) (c : Dev nD) :
    Gen.W3 (F := Ideal) m ρ c (Proc.devRef .tc main_arg9) = (kArgs m c).nSi := by
  rw [W3_eq_W1 m ρ c main_arg9 (by decide) (by decide)]
  show StableHlo.after Gen.hostOps0 _ (Proc.devRef .tc main_arg9) = _
  after_results_simp
  rfl

set_option maxRecDepth 8192 in
/-- Argument 10 reaches the last stretch as launched: no operation and no region writes it. -/
theorem W3_arg10 (m : (ℓ : Loc nD τ sig) → Buf (Elt Ideal) ℓ) (ρ : Dev nD → PrngReg) (c : Dev nD) :
    Gen.W3 (F := Ideal) m ρ c (Proc.devRef .tc main_arg10) = (kArgs m c).nOu := by
  rw [W3_eq_W1 m ρ c main_arg10 (by decide) (by decide)]
  show StableHlo.after Gen.hostOps0 _ (Proc.devRef .tc main_arg10) = _
  after_results_simp
  rfl

set_option maxRecDepth 8192 in
/-- Argument 11 reaches the last stretch as launched: no operation and no region writes it. -/
theorem W3_arg11 (m : (ℓ : Loc nD τ sig) → Buf (Elt Ideal) ℓ) (ρ : Dev nD → PrngReg) (c : Dev nD) :
    Gen.W3 (F := Ideal) m ρ c (Proc.devRef .tc main_arg11) = (kArgs m c).nOi := by
  rw [W3_eq_W1 m ρ c main_arg11 (by decide) (by decide)]
  show StableHlo.after Gen.hostOps0 _ (Proc.devRef .tc main_arg11) = _
  after_results_simp
  rfl

set_option maxRecDepth 8192 in
/-- Argument 14 reaches the last stretch as launched: no operation and no region writes it. -/
theorem W3_arg14 (m : (ℓ : Loc nD τ sig) → Buf (Elt Ideal) ℓ) (ρ : Dev nD → PrngReg) (c : Dev nD) :
    Gen.W3 (F := Ideal) m ρ c (Proc.devRef .tc main_arg14) = (kArgs m c).users := by
  rw [W3_eq_W1 m ρ c main_arg14 (by decide) (by decide)]
  show StableHlo.after Gen.hostOps0 _ (Proc.devRef .tc main_arg14) = _
  after_results_simp
  rfl

set_option maxRecDepth 8192 in
/-- Argument 15 reaches the last stretch as launched: no operation and no region writes it. -/
theorem W3_arg15 (m : (ℓ : Loc nD τ sig) → Buf (Elt Ideal) ℓ) (ρ : Dev nD → PrngReg) (c : Dev nD) :
    Gen.W3 (F := Ideal) m ρ c (Proc.devRef .tc main_arg15) = (kArgs m c).pos := by
  rw [W3_eq_W1 m ρ c main_arg15 (by decide) (by decide)]
  show StableHlo.after Gen.hostOps0 _ (Proc.devRef .tc main_arg15) = _
  after_results_simp
  rfl

set_option maxRecDepth 8192 in
/-- Argument 16 reaches the last stretch as launched: no operation and no region writes it. -/
theorem W3_arg16 (m : (ℓ : Loc nD τ sig) → Buf (Elt Ideal) ℓ) (ρ : Dev nD → PrngReg) (c : Dev nD) :
    Gen.W3 (F := Ideal) m ρ c (Proc.devRef .tc main_arg16) = (kArgs m c).neg := by
  rw [W3_eq_W1 m ρ c main_arg16 (by decide) (by decide)]
  show StableHlo.after Gen.hostOps0 _ (Proc.devRef .tc main_arg16) = _
  after_results_simp
  rfl

set_option maxRecDepth 8192 in
/-- Argument 17 reaches the last stretch as launched: no operation and no region writes it. -/
theorem W3_arg17 (m : (ℓ : Loc nD τ sig) → Buf (Elt Ideal) ℓ) (ρ : Dev nD → PrngReg) (c : Dev nD) :
    Gen.W3 (F := Ideal) m ρ c (Proc.devRef .tc main_arg17) = (kArgs m c).oUsers := by
  rw [W3_eq_W1 m ρ c main_arg17 (by decide) (by decide)]
  show StableHlo.after Gen.hostOps0 _ (Proc.devRef .tc main_arg17) = _
  after_results_simp
  rfl

set_option maxRecDepth 8192 in
/-- Argument 18 reaches the last stretch as launched: no operation and no region writes it. -/
theorem W3_arg18 (m : (ℓ : Loc nD τ sig) → Buf (Elt Ideal) ℓ) (ρ : Dev nD → PrngReg) (c : Dev nD) :
    Gen.W3 (F := Ideal) m ρ c (Proc.devRef .tc main_arg18) = (kArgs m c).oPos := by
  rw [W3_eq_W1 m ρ c main_arg18 (by decide) (by decide)]
  show StableHlo.after Gen.hostOps0 _ (Proc.devRef .tc main_arg18) = _
  after_results_simp
  rfl

set_option maxRecDepth 8192 in
/-- Argument 19 reaches the last stretch as launched: no operation and no region writes it. -/
theorem W3_arg19 (m : (ℓ : Loc nD τ sig) → Buf (Elt Ideal) ℓ) (ρ : Dev nD → PrngReg) (c : Dev nD) :
    Gen.W3 (F := Ideal) m ρ c (Proc.devRef .tc main_arg19) = (kArgs m c).oNeg := by
  rw [W3_eq_W1 m ρ c main_arg19 (by decide) (by decide)]
  show StableHlo.after Gen.hostOps0 _ (Proc.devRef .tc main_arg19) = _
  after_results_simp
  rfl

set_option maxRecDepth 8192 in
/-- The aggregation S1 reaches the last stretch unchanged. -/
theorem W3_v12 (m : (ℓ : Loc nD τ sig) → Buf (Elt Ideal) ℓ) (ρ : Dev nD → PrngReg) (c : Dev nD) :
    Gen.W3 (F := Ideal) m ρ c (Proc.devRef .tc main_v12) = (kArgs m c).S1 :=
  (W3_eq_W1 m ρ c main_v12 (by decide) (by decide)).trans (W1_v12 m ρ c)

set_option maxRecDepth 8192 in
/-- The aggregation S2 reaches the last stretch unchanged. -/
theorem W3_v25 (m : (ℓ : Loc nD τ sig) → Buf (Elt Ideal) ℓ) (ρ : Dev nD → PrngReg) (c : Dev nD) :
    Gen.W3 (F := Ideal) m ρ c (Proc.devRef .tc main_v25) = (kArgs m c).S2 :=
  (W3_eq_W1 m ρ c main_v25 (by decide) (by decide)).trans (W1_v25 m ρ c)

set_option maxRecDepth 8192 in
/-- The aggregation S3 reaches the last stretch unchanged. -/
theorem W3_v38 (m : (ℓ : Loc nD τ sig) → Buf (Elt Ideal) ℓ) (ρ : Dev nD → PrngReg) (c : Dev nD) :
    Gen.W3 (F := Ideal) m ρ c (Proc.devRef .tc main_v38) = (kArgs m c).S3 :=
  (W3_eq_W1 m ρ c main_v38 (by decide) (by decide)).trans (W1_v38 m ρ c)

set_option maxRecDepth 8192 in
/-- The aggregation S4 reaches the last stretch unchanged. -/
theorem W3_v51 (m : (ℓ : Loc nD τ sig) → Buf (Elt Ideal) ℓ) (ρ : Dev nD → PrngReg) (c : Dev nD) :
    Gen.W3 (F := Ideal) m ρ c (Proc.devRef .tc main_v51) = (kArgs m c).S4 :=
  (W3_eq_W1 m ρ c main_v51 (by decide) (by decide)).trans (W1_v51 m ρ c)

set_option maxRecDepth 8192 in
/-- The first attention region's output array holds the user attention of the aggregated embeddings. -/
theorem W3_v60 (m : (ℓ : Loc nD τ sig) → Buf (Elt Ideal) ℓ) (ρ : Dev nD → PrngReg) (c : Dev nD) :
    Gen.W3 (F := Ideal) m ρ c (Proc.devRef .tc main_v60) = (kArgs m c).kH1u :=
  (Gen.W3_of_ne m ρ c main_v60 (by decide)).trans <| (Gen.W2_arr m ρ c 3).trans <|
    (region0_value (Gen.V1 m ρ) c).trans <| by
      show attnK (Gen.W1 m ρ c (Proc.devRef .tc main_v52)) (Gen.W1 m ρ c (Proc.devRef .tc main_v53))
        (Gen.W1 m ρ c (Proc.devRef .tc main_v55)) = _
      rw [W1_v52, W1_v53, W1_v55]
      rfl

set_option maxRecDepth 8192 in
/-- The second attention region's output array holds the item attention; its operands were not touched by the first region. -/
theorem W3_v61 (m : (ℓ : Loc nD τ sig) → Buf (Elt Ideal) ℓ) (ρ : Dev nD → PrngReg) (c : Dev nD) :
    Gen.W3 (F := Ideal) m ρ c (Proc.devRef .tc main_v61) = (kArgs m c).kH1i :=
  (Gen.W3_arr m ρ c 3).trans <| (region1_value (Gen.V2 m ρ) c).trans <| by
    show attnK (Gen.W2 m ρ c (Proc.devRef .tc main_v56)) (Gen.W2 m ρ c (Proc.devRef .tc main_v57))
      (Gen.W2 m ρ c (Proc.devRef .tc main_v59)) = _
    rw [Gen.W2_of_ne m ρ c main_v56 (by decide), Gen.W2_of_ne m ρ c main_v57 (by decide),
      Gen.W2_of_ne m ρ c main_v59 (by decide), W1_v56, W1_v57, W1_v59]
    rfl

/-! ## The last stretch: the three normalised results -/

/-- The concatenation of two arrays along an axis, with the two operands as plain arguments. -/
private def cat2 {α : Type} (t : Shape) (ax : Fin t.rank) (s1 s2 : Shape) (a : s1.Idx → α) (b : s2.Idx → α)
    (h : Shape.Concatenates [s1, s2] t ax) : t.Idx → α :=
  concatenate t ax [⟨s1, a⟩, ⟨s2, b⟩] h

private theorem cat2_eq {α : Type} (t : Shape) (ax : Fin t.rank) (s1 s2 : Shape) (a : s1.Idx → α) (b : s2.Idx → α)
    (h : Shape.Concatenates [s1, s2] t ax) :
    concatenate t ax [⟨s1, a⟩, ⟨s2, b⟩] h = cat2 t ax s1 s2 a b h := rfl

set_option maxRecDepth 8192 in
set_option maxHeartbeats 1600000 in
/-- The first result buffer holds the normalised epilogue of the user attention, the sampled user mean and the observed user mean at the batch's users. -/
theorem W4_v137 (m : (ℓ : Loc nD τ sig) → Buf (Elt Ideal) ℓ) (ρ : Dev nD → PrngReg) (c : Dev nD) :
    Gen.W4 (F := Ideal) m ρ c (Proc.devRef .tc main_v137) = p5norm (kArgs m c).kOut0 := by
  show StableHlo.after Gen.hostOps2 _ (Proc.devRef .tc main_v137) = _
  simp (disch := decide) only [StableHlo.after_cons, StableHlo.after_nil,
    StableHlo.nullary_result', StableHlo.unary_result', StableHlo.binary_result', StableHlo.ternary_result',
    StableHlo.nullary_result_ne', StableHlo.unary_result_ne', StableHlo.binary_result_ne', StableHlo.ternary_result_ne',
    cat2_eq]
  rw [W3_v60, W3_v12, W3_arg4, W3_arg8, W3_arg14, W3_v38, W3_arg6, W3_arg10, W3_arg17]
  rfl

set_option maxRecDepth 8192 in
set_option maxHeartbeats 1600000 in
/-- The second result buffer holds the normalised epilogue of the item attention, the sampled item mean and the observed item mean at the batch's positive items. -/
theorem W4_v148 (m : (ℓ : Loc nD τ sig) → Buf (Elt Ideal) ℓ) (ρ : Dev nD → PrngReg) (c : Dev nD) :
    Gen.W4 (F := Ideal) m ρ c (Proc.devRef .tc main_v148) = p5norm (kArgs m c).kOut1 := by
  show StableHlo.after Gen.hostOps2 _ (Proc.devRef .tc main_v148) = _
  simp (disch := decide) only [StableHlo.after_cons, StableHlo.after_nil,
    StableHlo.nullary_result', StableHlo.unary_result', StableHlo.binary_result', StableHlo.ternary_result',
    StableHlo.nullary_result_ne', StableHlo.unary_result_ne', StableHlo.binary_result_ne', StableHlo.ternary_result_ne',
    cat2_eq]
  rw [W3_v61, W3_v25, W3_arg5, W3_arg9, W3_arg15, W3_v51, W3_arg7, W3_arg11, W3_arg18]
  rfl

set_option maxRecDepth 8192 in
set_option maxHeartbeats 1600000 in
/-- The third result buffer holds the same at the batch's negative items. -/
theorem W4_v159 (m : (ℓ : Loc nD τ sig) → Buf (Elt Ideal) ℓ) (ρ : Dev nD → PrngReg) (c : Dev nD) :
    Gen.W4 (F := Ideal) m ρ c (Proc.devRef .tc main_v159) = p5norm (kArgs m c).kOut2 := by
  show StableHlo.after Gen.hostOps2 _ (Proc.devRef .tc main_v159) = _
  simp (disch := decide) only [StableHlo.after_cons, StableHlo.after_nil,
    StableHlo.nullary_result', StableHlo.unary_result', StableHlo.binary_result', StableHlo.ternary_result',
    StableHlo.nullary_result_ne', StableHlo.unary_result_ne', StableHlo.binary_result_ne', StableHlo.ternary_result_ne',
    cat2_eq]
  rw [W3_v61, W3_v25, W3_arg5, W3_arg9, W3_arg16, W3_v51, W3_arg7, W3_arg11, W3_arg19]
  rfl

end Cert.BGCF

end
-- ==== Proof.RefValue.lean ====
/-
  The reference program's three results, as its run reads them back, are the shared normalisation of `rOut0`,
  `rOut1`, `rOut2` of its argument arrays: the run's composed terms are these functions, operation for operation.
-/
import proofs.«420976_j38130719654352_3_alg».proof.Proof.Values
import proofs.«420976_j38130719654352_3_alg».proof.Proof.Gen.ReferenceIdeal.Run

noncomputable section

namespace Cert.BGCF

open Idealize.ShloMosaic Idealize.ShloMosaic.TcCoe Idealize.SL.Sem Idealize.ShloMosaic.StableHlo
open Cert.ReferenceIdeal Cert.ReferenceIdeal.Facts₀

/-- The reference's argument arrays on device c, as one record. -/
def rArgs (m : (ℓ : Loc nD τ sig) → Buf (Elt Ideal) ℓ) (c : Dev nD) : Args where
  user := m ((c.tc : Thread nD τ).loc main_arg0)
  item := m ((c.tc : Thread nD τ).loc main_arg1)
  wAu := m ((c.tc : Thread nD τ).loc main_arg2)
  wAi := m ((c.tc : Thread nD τ).loc main_arg3)
  wMu := m ((c.tc : Thread nD τ).loc main_arg4)
  wMi := m ((c.tc : Thread nD τ).loc main_arg5)
  wOu := m ((c.tc : Thread nD τ).loc main_arg6)
  wOi := m ((c.tc : Thread nD τ).loc main_arg7)
  nSu := m ((c.tc : Thread nD τ).loc main_arg8)
  nSi := m ((c.tc : Thread nD τ).loc main_arg9)
  nOu := m ((c.tc : Thread nD τ).loc main_arg10)
  nOi := m ((c.tc : Thread nD τ).loc main_arg11)
  adjVal := m ((c.tc : Thread nD τ).loc main_arg12)
  obsVal := m ((c.tc : Thread nD τ).loc main_arg13)
  users := m ((c.tc : Thread nD τ).loc main_arg14)
  pos := m ((c.tc : Thread nD τ).loc main_arg15)
  neg := m ((c.tc : Thread nD τ).loc main_arg16)
  oUsers := m ((c.tc : Thread nD τ).loc main_arg17)
  oPos := m ((c.tc : Thread nD τ).loc main_arg18)
  oNeg := m ((c.tc : Thread nD τ).loc main_arg19)
  adjRow := m ((c.tc : Thread nD τ).loc main_arg20)
  adjCol := m ((c.tc : Thread nD τ).loc main_arg21)
  obsRow := m ((c.tc : Thread nD τ).loc main_arg22)
  obsCol := m ((c.tc : Thread nD τ).loc main_arg23)

set_option maxRecDepth 16384 in
/-- The first result before normalisation. -/
theorem ref_out0 (m : (ℓ : Loc nD τ sig) → Buf (Elt Ideal) ℓ) (c : Dev nD) :
    Cert.ReferenceIdeal.Value.res_main_v184 (F := Ideal) (launchContents m c) = (rArgs m c).rOut0 := rfl

set_option maxRecDepth 16384 in
/-- The second result before normalisation. -/
theorem ref_out1 (m : (ℓ : Loc nD τ sig) → Buf (Elt Ideal) ℓ) (c : Dev nD) :
    Cert.ReferenceIdeal.Value.res_main_v193 (F := Ideal) (launchContents m c) = (rArgs m c).rOut1 := rfl

set_option maxRecDepth 16384 in
/-- The third result before normalisation. -/
theorem ref_out2 (m : (ℓ : Loc nD τ sig) → Buf (Elt Ideal) ℓ) (c : Dev nD) :
    Cert.ReferenceIdeal.Value.res_main_v202 (F := Ideal) (launchContents m c) = (rArgs m c).rOut2 := rfl

end Cert.BGCF

end
-- ==== Proof.Finite.lean ====
import proofs.«420976_j38130719654352_3_alg».proof.Proof.Values
import proofs.«420976_j38130719654352_3_alg».proof.Defs
import proofs.«420976_j38130719654352_3_alg».proof.Proof.Gen.Pre_finite_inputs
import proofs.«420976_j38130719654352_3_alg».proof.Proof.Gen.KernelIdeal
import proofs.«420976_j38130719654352_3_alg».proof.Proof.LibERealBatchNorm
import Idealize.ShloMosaic.Lib.ReduceAll
import Idealize.ShloMosaic.Lib.ValueIdx

/-!
  The precondition gives reality. The claim's precondition says that, for each of the fourteen float argument
  arrays x, the conjunction over all entries i of |x i| < +∞ holds. An extended real whose absolute value
  max a (-a) is strictly below ⊤ is neither ⊤ nor ⊥, hence a real number; so every entry of every float
  argument array is real.
-/

noncomputable section

namespace Cert.BGCF

open Idealize.ShloMosaic Idealize.ShloMosaic.ValueIdx Cert.ReferenceIdeal Cert.ReferenceIdeal.Facts₀
open scoped BigOperators

/-- The f32 pattern with all exponent bits set, a zero fraction and a clear sign denotes plus infinity. -/
theorem ofBits_posInf_f32 : Ideal.ofBits .f32 0x7F800000#32 = (⊤ : EReal) := by
  simp [Ideal.ofBits, Ideal.ieee]

/-- An extended real whose absolute value max a (-a) compares strictly below plus infinity is a real number:
    at ⊥ and at ⊤ the absolute value is ⊤, which is not below itself. -/
theorem isReal_of_abs_lt_posInf (a : EReal)
    (h : Ideal.cmp .olt (max a (-a)) (Ideal.ofBits .f32 0x7F800000#32) = 1#1) : ∃ r : ℝ, a = (r : EReal) := by
  rw [ofBits_posInf_f32] at h
  induction a using EReal.rec with
  | bot => simp [Ideal.cmp] at h
  | top => simp [Ideal.cmp] at h
  | coe r => exact ⟨r, rfl⟩

/-- If the conjunction over ALL entries i of an array x (of any shape) of |x i| < +∞ is true, every entry of the
    array is a real number. The conjunction is a reduction by and over every axis into the scalar shape, which has
    one index only, so every entry of the compared array reduces into it. -/
theorem isRealV_of_all_abs_lt_inf {s : Shape} (x : FVec Ideal s .f32)
    (hb : Cert.Pre_finite_inputs.S_.BroadcastsInDim s (![] : Fin 0 → Fin s.rank))
    {axes : List (Fin s.rank)} (hr : s.ReducesTo axes Cert.Pre_finite_inputs.S_)
    (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    IsRealV x := by
  haveI : Subsingleton Cert.Pre_finite_inputs.S_.Idx := ⟨fun a b => funext fun d => d.elim0⟩
  exact fun i => isReal_of_abs_lt_posInf (x i) (Host.reduce_andi_all _ _ hr hu ix0 e i)

/-- Under the claim's precondition (every float input finite) each of the fourteen float argument arrays of the
    kernel holds real numbers only. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      IsRealV (m ((c.tc : Thread Cert.KernelIdeal.nD Cert.KernelIdeal.τ).loc Cert.KernelIdeal.main_arg0))
      ∧ IsRealV (m ((c.tc : Thread Cert.KernelIdeal.nD Cert.KernelIdeal.τ).loc Cert.KernelIdeal.main_arg1))
      ∧ IsRealV (m ((c.tc : Thread Cert.KernelIdeal.nD Cert.KernelIdeal.τ).loc Cert.KernelIdeal.main_arg2))
      ∧ IsRealV (m ((c.tc : Thread Cert.KernelIdeal.nD Cert.KernelIdeal.τ).loc Cert.KernelIdeal.main_arg3))
      ∧ IsRealV (m ((c.tc : Thread Cert.KernelIdeal.nD Cert.KernelIdeal.τ).loc Cert.KernelIdeal.main_arg4))
      ∧ IsRealV (m ((c.tc : Thread Cert.KernelIdeal.nD Cert.KernelIdeal.τ).loc Cert.KernelIdeal.main_arg5))
      ∧ IsRealV (m ((c.tc : Thread Cert.KernelIdeal.nD Cert.KernelIdeal.τ).loc Cert.KernelIdeal.main_arg6))
      ∧ IsRealV (m ((c.tc : Thread Cert.KernelIdeal.nD Cert.KernelIdeal.τ).loc Cert.KernelIdeal.main_arg7))
      ∧ IsRealV (m ((c.tc : Thread Cert.KernelIdeal.nD Cert.KernelIdeal.τ).loc Cert.KernelIdeal.main_arg8))
      ∧ IsRealV (m ((c.tc : Thread Cert.KernelIdeal.nD Cert.KernelIdeal.τ).loc Cert.KernelIdeal.main_arg9))
      ∧ IsRealV (m ((c.tc : Thread Cert.KernelIdeal.nD Cert.KernelIdeal.τ).loc Cert.KernelIdeal.main_arg10))
      ∧ IsRealV (m ((c.tc : Thread Cert.KernelIdeal.nD Cert.KernelIdeal.τ).loc Cert.KernelIdeal.main_arg11))
      ∧ IsRealV (m ((c.tc : Thread Cert.KernelIdeal.nD Cert.KernelIdeal.τ).loc Cert.KernelIdeal.main_arg12))
      ∧ IsRealV (m ((c.tc : Thread Cert.KernelIdeal.nD Cert.KernelIdeal.τ).loc Cert.KernelIdeal.main_arg13)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  -- the precondition is the left-nested conjunction ((p0 ∧ p1) ∧ p2) ∧ … ∧ p13 of the fourteen arrays' tests
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨isRealV_of_all_abs_lt_inf _ _ _ _ h0,
    isRealV_of_all_abs_lt_inf _ _ _ _ e1,
    isRealV_of_all_abs_lt_inf _ _ _ _ e2,
    isRealV_of_all_abs_lt_inf _ _ _ _ e3,
    isRealV_of_all_abs_lt_inf _ _ _ _ e4,
    isRealV_of_all_abs_lt_inf _ _ _ _ e5,
    isRealV_of_all_abs_lt_inf _ _ _ _ e6,
    isRealV_of_all_abs_lt_inf _ _ _ _ e7,
    isRealV_of_all_abs_lt_inf _ _ _ _ e8,
    isRealV_of_all_abs_lt_inf _ _ _ _ e9,
    isRealV_of_all_abs_lt_inf _ _ _ _ e10,
    isRealV_of_all_abs_lt_inf _ _ _ _ e11,
    isRealV_of_all_abs_lt_inf _ _ _ _ e12,
    isRealV_of_all_abs_lt_inf _ _ _ _ e13⟩

end Cert.BGCF

end
-- ==== Proof.MmAt.lean ====
/-
  The dense product of an 8192×64 array with a 64×64 matrix, and the elementwise product of two 8192×64 arrays,
  read at an index; and the fact that the dense product, the elementwise product and tanh take arrays of real
  numbers to arrays of real numbers.
-/
import proofs.«420976_j38130719654352_3_alg».proof.Proof.Spec
import proofs.«420976_j38130719654352_3_alg».proof.Proof.LibERealBatchNorm
import Idealize.ShloMosaic.PureOps.Ideal.Laws
import Idealize.ShloMosaic.Lib.ValueIdx

noncomputable section

namespace Cert.BGCF

open Idealize.ShloMosaic Idealize.ShloMosaic.ValueIdx Cert.ReferenceIdeal Cert.ReferenceIdeal.Facts₀
open scoped BigOperators

/-! ## The operand indices of the dense product

At the output index (r, c) and the contraction position k, the left operand is read at (r, k) and the right
operand at (k, c). One statement per operand axis. -/

/-- The left operand's row coordinate is the output's row. -/
theorem lhs_dot_S8192x64_S64x64_S8192x64_1_0_0_1_n_n_0 (j : S8192x64.Idx)
    (k : dot_S8192x64_S64x64_S8192x64_1_0_0_1_n_n.contr.Idx) :
    (dot_S8192x64_S64x64_S8192x64_1_0_0_1_n_n.lhsIdx j k 0).val = (j 0).val := rfl

/-- The left operand's column coordinate is the contraction position. -/
theorem lhs_dot_S8192x64_S64x64_S8192x64_1_0_0_1_n_n_1 (j : S8192x64.Idx)
    (k : dot_S8192x64_S64x64_S8192x64_1_0_0_1_n_n.contr.Idx) :
    (dot_S8192x64_S64x64_S8192x64_1_0_0_1_n_n.lhsIdx j k 1).val = (k ⟨0, by decide⟩).val :=
  DotDims.lhsIdx_val_of_single _ (cl := 1) rfl j k

/-- The right operand's row coordinate is the contraction position. -/
theorem rhs_dot_S8192x64_S64x64_S8192x64_1_0_0_1_n_n_0 (j : S8192x64.Idx)
    (k : dot_S8192x64_S64x64_S8192x64_1_0_0_1_n_n.contr.Idx) :
    (dot_S8192x64_S64x64_S8192x64_1_0_0_1_n_n.rhsIdx j k 0).val = (k ⟨0, by decide⟩).val :=
  DotDims.rhsIdx_val_of_single _ (cr := 0) rfl j k

/-- The right operand's column coordinate is the output's column. -/
theorem rhs_dot_S8192x64_S64x64_S8192x64_1_0_0_1_n_n_1 (j : S8192x64.Idx)
    (k : dot_S8192x64_S64x64_S8192x64_1_0_0_1_n_n.contr.Idx) :
    (dot_S8192x64_S64x64_S8192x64_1_0_0_1_n_n.rhsIdx j k 1).val = (j 1).val := rfl

/-! ## The dense product -/

/-- Entry (r, c) of the product X·W is the sum over k of X[r, k] · W[k, c]. -/
theorem mm_apply (X : Mat) (W : Wt) (r : Fin 8192) (c : Fin 64) :
    mm X W (ix2 r c) = ∑ k : Fin 64, X (ix2 r k) * W (ix2 k c) := by
  unfold mm
  simp only [Host.dotGeneral]
  rw [Ideal.dotGeneral_apply,
    ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have hl : dot_S8192x64_S64x64_S8192x64_1_0_0_1_n_n.lhsIdx (ix2 r c)
      ((contrEquiv1 dot_S8192x64_S64x64_S8192x64_1_0_0_1_n_n 64 rfl rfl).symm k) = ix2 r k := by
    funext a; apply Fin.ext
    match a with
    | ⟨0, _⟩ => exact lhs_dot_S8192x64_S64x64_S8192x64_1_0_0_1_n_n_0 _ _
    | ⟨1, _⟩ => exact (lhs_dot_S8192x64_S64x64_S8192x64_1_0_0_1_n_n_1 _ _).trans hk
  have hr : dot_S8192x64_S64x64_S8192x64_1_0_0_1_n_n.rhsIdx (ix2 r c)
      ((contrEquiv1 dot_S8192x64_S64x64_S8192x64_1_0_0_1_n_n 64 rfl rfl).symm k) = ix2 k c := by
    funext a; apply Fin.ext
    match a with
    | ⟨0, _⟩ => exact (rhs_dot_S8192x64_S64x64_S8192x64_1_0_0_1_n_n_0 _ _).trans hk
    | ⟨1, _⟩ => exact rhs_dot_S8192x64_S64x64_S8192x64_1_0_0_1_n_n_1 _ _
  rw [hl, hr]

/-- The product of a real array with a real matrix is a real array: each entry is a finite sum of products of
    real numbers. -/
theorem mm_real {X : Mat} {W : Wt} (hX : IsRealV X) (hW : IsRealV W) : IsRealV (mm X W) := by
  intro i
  obtain ⟨p, q, rfl⟩ : ∃ (p : Fin 8192) (q : Fin 64), i = ix2 p q := ⟨i 0, i 1, eq_ix2 i⟩
  show Cert.ERealBN.IsReal (mm X W (ix2 p q))
  rw [mm_apply]
  exact Cert.ERealBN.IsReal.sum _ _ fun k _ => Cert.ERealBN.IsReal.mul (hX _) (hW _)

/-! ## The elementwise product -/

/-- The elementwise product read at an index is the product of the two entries there. -/
theorem mulf_apply' (X Y : Mat) (i : S8192x64.Idx) : mulf X Y i = X i * Y i := rfl

/-- The elementwise product of two real arrays is a real array. -/
theorem mulf_real {X Y : Mat} (hX : IsRealV X) (hY : IsRealV Y) : IsRealV (mulf X Y) := by
  intro i
  rw [mulf_apply']
  exact Cert.ERealBN.IsReal.mul (hX i) (hY i)

/-! ## tanh -/

/-- tanh of a real array is a real array: tanh of a real number is a real number. -/
theorem tanh_real {X : Mat} (hX : IsRealV X) : IsRealV (Host.tanh X) := by
  intro i
  obtain ⟨r, hr⟩ := hX i
  refine ⟨Real.tanh r, ?_⟩
  show FloatOps.hostUnary .tanh (X i) = _
  rw [hr, Ideal.hostUnary_tanh_def, Ideal.tanh_coe]

end Cert.BGCF

end
-- ==== Proof.SpmmLaw.lean ====
/-
  The sparse product is linear in its source array.

  With A the matrix the edge lists spell (entry (r, g) the sum of the weights of the edges whose row index is r and whose
  source row is g), the sparse product of an 8192×64 array X is A·X:

      (A·X)(r, c) = ∑ over the edges e with row index r of  val e · X(source row of e, c).

  The first half of this file reads the gather and the scatter at an index and arrives at that formula: the gather reads, for
  edge e and feature c, the source array at one row that depends on e only (the start index read signed and clamped into
  the array) and at feature c; the update at (e, c') is added into the element (r, c) exactly when e's row index, read
  signed, is r and c' = c (an edge whose row index is outside [0, 8192) is added nowhere). The second half is the algebra:
  A·(X·W) = (A·X)·W, by exchanging the two finite sums, which needs the arrays real since the extended reals do not
  distribute at the infinities.
-/
import proofs.«420976_j38130719654352_3_alg».proof.Proof.Spec
import proofs.«420976_j38130719654352_3_alg».proof.Proof.LibERealBatchNorm
import proofs.«420976_j38130719654352_3_alg».proof.Proof.MmAt
import Idealize.ShloMosaic.PureOps.Ideal.Laws
import Idealize.ShloMosaic.Lib.ValueIdx

noncomputable section

namespace Cert.BGCF

open Idealize.ShloMosaic Idealize.ShloMosaic.ValueIdx Cert.ReferenceIdeal Cert.ReferenceIdeal.Facts₀
open scoped BigOperators

/-! ## The gather at an index -/

/-- The row of the source array that edge e reads: its start index, read signed, clamped into [0, 8191]. -/
def edgeSrc (si : IVec S262144x1 32) (e : Fin 262144) : Fin 8192 :=
  ⟨min (si (ix2 e (0 : Fin 1))).toInt.toNat (8192 - 1), by omega⟩

theorem edge_gather_start0 (si : IVec S262144x1 32) (e : Fin 262144) (c : Fin 64) :
    gather_S8192x64_S262144x1_S262144x64_1_0_n_n_0_1_164.start (ix2 e c) si 0
      = min (si (ix2 e (0 : Fin 1))).toInt.toNat (8192 - 1) := by
  unfold GatherDims.start
  rw [dif_pos (show (0 : Fin 2) ∈ gather_S8192x64_S262144x1_S262144x64_1_0_n_n_0_1_164.startIndexMap from List.mem_singleton.mpr rfl)]
  have hsi : gather_S8192x64_S262144x1_S262144x64_1_0_n_n_0_1_164.siIdx (ix2 e c)
      ⟨List.idxOf (0 : Fin 2) gather_S8192x64_S262144x1_S262144x64_1_0_n_n_0_1_164.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem edge_gather_start1 (si : IVec S262144x1 32) (e : Fin 262144) (c : Fin 64) :
    gather_S8192x64_S262144x1_S262144x64_1_0_n_n_0_1_164.start (ix2 e c) si 1 = 0 := by
  unfold GatherDims.start
  rw [dif_neg (show ¬ (1 : Fin 2) ∈ gather_S8192x64_S262144x1_S262144x64_1_0_n_n_0_1_164.startIndexMap by decide)]

theorem edge_gather_off0 (e : Fin 262144) (c : Fin 64) :
    gather_S8192x64_S262144x1_S262144x64_1_0_n_n_0_1_164.offCoord (ix2 e c) 0 = 0 :=
  GatherDims.offCoord_eq_zero _ _ _ (fun h => ((GatherDims.mem_sKept _ _).mp h).1 (List.mem_singleton.mpr rfl))

theorem edge_gather_off1 (e : Fin 262144) (c : Fin 64) :
    gather_S8192x64_S262144x1_S262144x64_1_0_n_n_0_1_164.offCoord (ix2 e c) 1 = c.val := by
  unfold GatherDims.offCoord
  rw [dif_pos (show (1 : Fin 2) ∈ gather_S8192x64_S262144x1_S262144x64_1_0_n_n_0_1_164.sKept by decide)]
  rfl

/-- The gather reads, for edge e and feature c, the source array at row `edgeSrc e` and feature c. -/
theorem edge_gather_apply (X : Mat) (si : IVec S262144x1 32) (e : Fin 262144) (c : Fin 64) :
    Host.gather gather_S8192x64_S262144x1_S262144x64_1_0_n_n_0_1_164 X si (ix2 e c) = X (ix2 (edgeSrc si e) c) := by
  unfold Host.gather
  refine congrArg X (funext fun a => Fin.ext ?_)
  match a with
  | ⟨0, _⟩ =>
    show gather_S8192x64_S262144x1_S262144x64_1_0_n_n_0_1_164.start (ix2 e c) si 0
      + gather_S8192x64_S262144x1_S262144x64_1_0_n_n_0_1_164.batchCoord (ix2 e c) 0
      + gather_S8192x64_S262144x1_S262144x64_1_0_n_n_0_1_164.offCoord (ix2 e c) 0 = _
    rw [edge_gather_start0, GatherDims.batchCoord_eq_zero _ _ _ List.not_mem_nil, edge_gather_off0]
    rfl
  | ⟨1, _⟩ =>
    show gather_S8192x64_S262144x1_S262144x64_1_0_n_n_0_1_164.start (ix2 e c) si 1
      + gather_S8192x64_S262144x1_S262144x64_1_0_n_n_0_1_164.batchCoord (ix2 e c) 1
      + gather_S8192x64_S262144x1_S262144x64_1_0_n_n_0_1_164.offCoord (ix2 e c) 1 = _
    rw [edge_gather_start1, GatherDims.batchCoord_eq_zero _ _ _ List.not_mem_nil, edge_gather_off1]
    simp

/-! ## The scatter at an index -/

theorem edge_scatter_start0 (idx : IVec S262144x1 32) (e : Fin 262144) (c' : Fin 64) :
    scatter_S8192x64_S262144x1_S262144x64_1_0_0_1.start (ix2 e c') idx 0 = (idx (ix2 e (0 : Fin 1))).toInt := by
  unfold ScatterDims.start
  rw [dif_pos (show (0 : Fin 2) ∈ scatter_S8192x64_S262144x1_S262144x64_1_0_0_1.scatterDimsToOperandDims from List.mem_singleton.mpr rfl)]
  have hsi : scatter_S8192x64_S262144x1_S262144x64_1_0_0_1.siIdx (ix2 e c')
      ⟨List.idxOf (0 : Fin 2) scatter_S8192x64_S262144x1_S262144x64_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem edge_scatter_start1 (idx : IVec S262144x1 32) (e : Fin 262144) (c' : Fin 64) :
    scatter_S8192x64_S262144x1_S262144x64_1_0_0_1.start (ix2 e c') idx 1 = 0 := by
  unfold ScatterDims.start
  rw [dif_neg (show ¬ (1 : Fin 2) ∈ scatter_S8192x64_S262144x1_S262144x64_1_0_0_1.scatterDimsToOperandDims by decide)]

theorem edge_scatter_window0 (e : Fin 262144) (c' : Fin 64) :
    scatter_S8192x64_S262144x1_S262144x64_1_0_0_1.window (ix2 e c') 0 = 0 := by
  unfold ScatterDims.window
  rw [dif_neg (show ¬ (0 : Fin 2) ∈ scatter_S8192x64_S262144x1_S262144x64_1_0_0_1.sKept by decide)]

theorem edge_scatter_window1 (e : Fin 262144) (c' : Fin 64) :
    scatter_S8192x64_S262144x1_S262144x64_1_0_0_1.window (ix2 e c') 1 = c'.val := by
  unfold ScatterDims.window
  rw [dif_pos (show (1 : Fin 2) ∈ scatter_S8192x64_S262144x1_S262144x64_1_0_0_1.sKept by decide)]
  rfl

/-- Edge e's row index, read as a signed integer, is r. -/
def edgeHit (idx : IVec S262144x1 32) (e : Fin 262144) (r : Fin 8192) : Prop :=
  (idx (ix2 e (0 : Fin 1))).toInt = (r.val : Int)

/-- The update at (e, c') lands on the element (r, c) exactly when edge e's row index is r and c' = c. -/
theorem edge_resultIdx_iff (idx : IVec S262144x1 32) (e : Fin 262144) (c' : Fin 64) (r : Fin 8192) (c : Fin 64) :
    scatter_S8192x64_S262144x1_S262144x64_1_0_0_1.resultIdx? (ix2 e c') idx = some (ix2 r c) ↔ edgeHit idx e r ∧ c' = c := by
  unfold ScatterDims.resultIdx? edgeHit
  constructor
  · intro h
    split at h
    · rename_i hc
      have h' := Option.some.inj h
      have h0 : (scatter_S8192x64_S262144x1_S262144x64_1_0_0_1.start (ix2 e c') idx 0
          + (scatter_S8192x64_S262144x1_S262144x64_1_0_0_1.window (ix2 e c') 0 : Int)).toNat = r.val :=
        congrArg (fun i : S8192x64.Idx => (i 0).val) h'
      have h1 : (scatter_S8192x64_S262144x1_S262144x64_1_0_0_1.start (ix2 e c') idx 1
          + (scatter_S8192x64_S262144x1_S262144x64_1_0_0_1.window (ix2 e c') 1 : Int)).toNat = c.val :=
        congrArg (fun i : S8192x64.Idx => (i 1).val) h'
      have hc0 := (hc 0).1
      rw [edge_scatter_start0, edge_scatter_window0] at h0 hc0
      rw [edge_scatter_start1, edge_scatter_window1] at h1
      refine ⟨by omega, Fin.ext (by omega)⟩
    · exact absurd h (by simp)
  · rintro ⟨ht, rfl⟩
    have hr := r.isLt
    have hc'' := c'.isLt
    have hcond : ∀ a, 0 ≤ scatter_S8192x64_S262144x1_S262144x64_1_0_0_1.start (ix2 e c') idx a
          + (scatter_S8192x64_S262144x1_S262144x64_1_0_0_1.window (ix2 e c') a : Int)
        ∧ scatter_S8192x64_S262144x1_S262144x64_1_0_0_1.start (ix2 e c') idx a
          + (scatter_S8192x64_S262144x1_S262144x64_1_0_0_1.window (ix2 e c') a : Int) < S8192x64.size a := by
      intro a
      match a with
      | ⟨0, _⟩ =>
        show 0 ≤ scatter_S8192x64_S262144x1_S262144x64_1_0_0_1.start (ix2 e c') idx 0
          + (scatter_S8192x64_S262144x1_S262144x64_1_0_0_1.window (ix2 e c') 0 : Int)
          ∧ scatter_S8192x64_S262144x1_S262144x64_1_0_0_1.start (ix2 e c') idx 0
          + (scatter_S8192x64_S262144x1_S262144x64_1_0_0_1.window (ix2 e c') 0 : Int) < ((8192 : Nat) : Int)
        rw [edge_scatter_start0, edge_scatter_window0]
        omega
      | ⟨1, _⟩ =>
        show 0 ≤ scatter_S8192x64_S262144x1_S262144x64_1_0_0_1.start (ix2 e c') idx 1
          + (scatter_S8192x64_S262144x1_S262144x64_1_0_0_1.window (ix2 e c') 1 : Int)
          ∧ scatter_S8192x64_S262144x1_S262144x64_1_0_0_1.start (ix2 e c') idx 1
          + (scatter_S8192x64_S262144x1_S262144x64_1_0_0_1.window (ix2 e c') 1 : Int) < ((64 : Nat) : Int)
        rw [edge_scatter_start1, edge_scatter_window1]
        omega
    rw [dif_pos hcond]
    refine congrArg some (funext fun a => Fin.ext ?_)
    match a with
    | ⟨0, _⟩ =>
      show (scatter_S8192x64_S262144x1_S262144x64_1_0_0_1.start (ix2 e c') idx 0
          + (scatter_S8192x64_S262144x1_S262144x64_1_0_0_1.window (ix2 e c') 0 : Int)).toNat = r.val
      rw [edge_scatter_start0, edge_scatter_window0]
      omega
    | ⟨1, _⟩ =>
      show (scatter_S8192x64_S262144x1_S262144x64_1_0_0_1.start (ix2 e c') idx 1
          + (scatter_S8192x64_S262144x1_S262144x64_1_0_0_1.window (ix2 e c') 1 : Int)).toNat = c'.val
      rw [edge_scatter_start1, edge_scatter_window1]
      omega

/-! ## The sparse product at an index -/

instance (idx : IVec S262144x1 32) (e : Fin 262144) (r : Fin 8192) : Decidable (edgeHit idx e r) := by
  unfold edgeHit; infer_instance

/-- One weight per edge, copied along the 64 features, reads the edge's weight. -/
theorem edge_bcast_val_apply (val : EdgeVal) (e : Fin 262144) (c : Fin 64) :
    broadcastInDim S262144x64 ![0, 1] bcast_S262144x1_S262144x64_0_1
      (broadcastInDim S262144x1 ![0] bcast_S262144_S262144x1_0 val) (ix2 e c) = val (ix1 e) := by
  unfold broadcastInDim
  refine congrArg val (funext fun a => Fin.ext ?_)
  match a with
  | ⟨0, _⟩ => rfl

/-- The zero array reads zero. -/
theorem spmm_zero_apply (i : S8192x64.Idx) :
    broadcastInDim S8192x64 ![] bcast_S_S8192x64 (constant (F := Ideal) S_ .f32 0x00000000#32) i = 0 :=
  Cert.ERealBN.ofBits_zero

/-- The sparse product at (r, c): the sum, over the edges whose row index is r, of the edge's weight times the source
    array at the edge's source row and feature c. -/
theorem spmm_apply (val : EdgeVal) (gi ri : EdgeIdx) (X : Mat) (r : Fin 8192) (c : Fin 64) :
    spmm val gi ri X (ix2 r c)
      = ∑ e ∈ Finset.univ.filter (fun e => edgeHit (broadcastInDim S262144x1 ![0] bcast_S262144_S262144x1_0 ri) e r),
          val (ix1 e) * X (ix2 (edgeSrc (wrapE gi) e) c) := by
  unfold spmm
  simp only [Host.scatterAdd, Ideal.hostScatterAdd_def]
  unfold Ideal.hostScatterAdd
  rw [spmm_zero_apply, zero_add, Finset.sum_filter, sum_idx2, Finset.sum_filter]
  refine Finset.sum_congr rfl fun e _ => ?_
  rw [Finset.sum_congr rfl (fun c' _ => if_congr (edge_resultIdx_iff _ e c' r c) rfl rfl)]
  by_cases hh : edgeHit (broadcastInDim S262144x1 ![0] bcast_S262144_S262144x1_0 ri) e r
  · simp only [hh, true_and, if_true, Finset.sum_ite_eq', Finset.mem_univ]
    rw [mulf_apply, edge_bcast_val_apply, edge_gather_apply]
  · simp only [hh, false_and, if_false, Finset.sum_const_zero]

/-! ## The law -/

/-- A weighted finite sum of finite product sums, regrouped: true for real data (the extended reals do not distribute
    at the infinities). -/
theorem sum_mul_sum_regroup {ι κ : Type} (F : Finset ι) [Fintype κ] (v : ι → EReal) (x : ι → κ → EReal) (w : κ → EReal)
    (hv : ∀ e, Cert.ERealBN.IsReal (v e)) (hx : ∀ e k, Cert.ERealBN.IsReal (x e k)) (hw : ∀ k, Cert.ERealBN.IsReal (w k)) :
    ∑ e ∈ F, v e * ∑ k, x e k * w k = ∑ k, (∑ e ∈ F, v e * x e k) * w k := by
  choose v' hv' using hv
  choose x' hx' using hx
  choose w' hw' using hw
  obtain rfl : v = fun e => ((v' e : ℝ) : EReal) := funext hv'
  obtain rfl : x = fun e k => ((x' e k : ℝ) : EReal) := funext fun e => funext fun k => hx' e k
  obtain rfl : w = fun k => ((w' k : ℝ) : EReal) := funext hw'
  simp only [← EReal.coe_mul, Cert.ERealBN.coe_sum]
  congr 1
  simp only [Finset.mul_sum, Finset.sum_mul]
  rw [Finset.sum_comm]
  exact Finset.sum_congr rfl fun k _ => Finset.sum_congr rfl fun e _ => (mul_assoc _ _ _).symm

/-- The sparse product of real arrays is real. -/
theorem spmm_real {val : EdgeVal} {X : Mat} (gi ri : EdgeIdx) (hv : IsRealV val) (hX : IsRealV X) :
    IsRealV (spmm val gi ri X) := by
  intro i
  obtain ⟨r, c, rfl⟩ : ∃ (r : Fin 8192) (c : Fin 64), i = ix2 r c := ⟨i 0, i 1, eq_ix2 i⟩
  rw [spmm_apply]
  exact Cert.ERealBN.IsReal.sum _ _ fun e _ => Cert.ERealBN.IsReal.mul (hv _) (hX _)

/-- The sparse product is linear in its source array: aggregating the rows of X·W is aggregating the rows of X and then
    multiplying by W. In symbols, A·(X·W) = (A·X)·W for the adjacency A the edge lists spell; all arrays real. -/
theorem spmm_mm (val : EdgeVal) (gi ri : EdgeIdx) (X : Mat) (W : Wt) (hv : IsRealV val) (hX : IsRealV X) (hW : IsRealV W) :
    spmm val gi ri (mm X W) = mm (spmm val gi ri X) W := by
  funext i
  obtain ⟨r, c, rfl⟩ : ∃ (r : Fin 8192) (c : Fin 64), i = ix2 r c := ⟨i 0, i 1, eq_ix2 i⟩
  rw [spmm_apply, mm_apply]
  simp only [mm_apply, spmm_apply]
  exact sum_mul_sum_regroup _ (fun e => val (ix1 e)) (fun e k => X (ix2 (edgeSrc (wrapE gi) e) k)) (fun k => W (ix2 k c))
    (fun e => hv _) (fun e k => hX _) (fun k => hW _)

end Cert.BGCF

end
-- ==== Proof.AttnRefAt.lean ====
/-
  The reference's attention read at an index. Its chain of array operations — the logits Q·Kᵀ, the exponential of the
  logits less their row maximum, the row sums, the quotient, the product with the values and the product with the
  weight matrix — is read entry by entry, at explicit coordinates: row r of the result is, feature by feature, the
  sum over j of (the sum over the key rows k of the normalised softmax weight of k times E[k, j]) times W[j, c].
  No algebra happens here and nothing need be finite: every step is the reading of one operation at one index.
-/
import proofs.«420976_j38130719654352_3_alg».proof.Proof.Spec
import proofs.«420976_j38130719654352_3_alg».proof.Proof.MmAt
import proofs.«420976_j38130719654352_3_alg».proof.Proof.RowReduceAt
import Idealize.ShloMosaic.PureOps.Ideal.Laws
import Idealize.ShloMosaic.PureOps.Reduce
import Idealize.ShloMosaic.Lib.IdealHost
import Idealize.ShloMosaic.Lib.ValueIdx
import Idealize.ShloMosaic.Lib.Pipeline.Value
import Idealize.ShloMosaic.Lib.ValueLayout

noncomputable section

namespace Cert.BGCF

open Idealize.ShloMosaic Idealize.ShloMosaic.ValueIdx Cert.ReferenceIdeal Cert.ReferenceIdeal.Facts₀
open scoped BigOperators

/-! ## The logits' product Q·Kᵀ: an 8192×64 array times a 64×8192 array -/

/-- The left operand's row coordinate is the result's row. -/
theorem lhs_dot_S8192x64_S64x8192_S8192x8192_1_0_0_1_n_n_0 (i : S8192x8192.Idx) (q : dot_S8192x64_S64x8192_S8192x8192_1_0_0_1_n_n.contr.Idx) :
    (dot_S8192x64_S64x8192_S8192x8192_1_0_0_1_n_n.lhsIdx i q 0).val = (i 0).val := by
  unfold DotDims.lhsIdx
  rw [dif_neg (show ¬(0 : Fin S8192x64.rank) ∈ dot_S8192x64_S64x8192_S8192x8192_1_0_0_1_n_n.lhsBatch by decide),
    dif_pos (show (0 : Fin S8192x64.rank) ∈ dot_S8192x64_S64x8192_S8192x8192_1_0_0_1_n_n.lhsNonContracting by decide)]
  rfl

/-- The left operand's column coordinate is the contraction position. -/
theorem lhs_dot_S8192x64_S64x8192_S8192x8192_1_0_0_1_n_n_1 (i : S8192x8192.Idx) (q : dot_S8192x64_S64x8192_S8192x8192_1_0_0_1_n_n.contr.Idx) :
    (dot_S8192x64_S64x8192_S8192x8192_1_0_0_1_n_n.lhsIdx i q 1).val = (q ⟨0, by decide⟩).val :=
  dot_S8192x64_S64x8192_S8192x8192_1_0_0_1_n_n.lhsIdx_val_of_single rfl i q

/-- The right operand's row coordinate is the contraction position. -/
theorem rhs_dot_S8192x64_S64x8192_S8192x8192_1_0_0_1_n_n_0 (i : S8192x8192.Idx) (q : dot_S8192x64_S64x8192_S8192x8192_1_0_0_1_n_n.contr.Idx) :
    (dot_S8192x64_S64x8192_S8192x8192_1_0_0_1_n_n.rhsIdx i q 0).val = (q ⟨0, by decide⟩).val :=
  dot_S8192x64_S64x8192_S8192x8192_1_0_0_1_n_n.rhsIdx_val_of_single rfl i q

/-- The right operand's column coordinate is the result's column. -/
theorem rhs_dot_S8192x64_S64x8192_S8192x8192_1_0_0_1_n_n_1 (i : S8192x8192.Idx) (q : dot_S8192x64_S64x8192_S8192x8192_1_0_0_1_n_n.contr.Idx) :
    (dot_S8192x64_S64x8192_S8192x8192_1_0_0_1_n_n.rhsIdx i q 1).val = (i 1).val := by
  unfold DotDims.rhsIdx
  rw [dif_neg (show ¬(1 : Fin S64x8192.rank) ∈ dot_S8192x64_S64x8192_S8192x8192_1_0_0_1_n_n.rhsBatch by decide),
    dif_pos (show (1 : Fin S64x8192.rank) ∈ dot_S8192x64_S64x8192_S8192x8192_1_0_0_1_n_n.rhsNonContracting by decide)]
  rfl

/-- The product of an 8192×64 array with a 64×8192 array, read at (r, c): the sum over the 64 shared coordinates of the entries' products. -/
theorem logitsDot_apply (X : FVec Ideal S8192x64 .f32) (Y : FVec Ideal S64x8192 .f32) (r : Fin 8192) (c : Fin 8192) :
    Host.dotGeneral dot_S8192x64_S64x8192_S8192x8192_1_0_0_1_n_n none X Y (ix2 r c) = ∑ k : Fin 64, X (ix2 r k) * Y (ix2 k c) := by
  simp only [Host.dotGeneral]
  rw [Ideal.dotGeneral_apply, ← Equiv.sum_comp (contrEquiv1 dot_S8192x64_S64x8192_S8192x8192_1_0_0_1_n_n 64 rfl rfl).symm]
  refine Finset.sum_congr rfl fun k _ => ?_
  have hk := contrEquiv1_symm_val dot_S8192x64_S64x8192_S8192x8192_1_0_0_1_n_n 64 rfl rfl k
  have el : dot_S8192x64_S64x8192_S8192x8192_1_0_0_1_n_n.lhsIdx (ix2 r c) ((contrEquiv1 dot_S8192x64_S64x8192_S8192x8192_1_0_0_1_n_n 64 rfl rfl).symm k) = ix2 r k :=
    funext fun a => Fin.ext (by
      match a with
      | ⟨0, _⟩ => exact lhs_dot_S8192x64_S64x8192_S8192x8192_1_0_0_1_n_n_0 _ _
      | ⟨1, _⟩ => exact (lhs_dot_S8192x64_S64x8192_S8192x8192_1_0_0_1_n_n_1 _ _).trans hk)
  have er : dot_S8192x64_S64x8192_S8192x8192_1_0_0_1_n_n.rhsIdx (ix2 r c) ((contrEquiv1 dot_S8192x64_S64x8192_S8192x8192_1_0_0_1_n_n 64 rfl rfl).symm k) = ix2 k c :=
    funext fun a => Fin.ext (by
      match a with
      | ⟨0, _⟩ => exact (rhs_dot_S8192x64_S64x8192_S8192x8192_1_0_0_1_n_n_0 _ _).trans hk
      | ⟨1, _⟩ => exact rhs_dot_S8192x64_S64x8192_S8192x8192_1_0_0_1_n_n_1 _ _)
  rw [el, er]

/-! ## The weights' product with the values: an 8192×8192 array times an 8192×64 array -/

/-- The left operand's row coordinate is the result's row. -/
theorem lhs_dot_S8192x8192_S8192x64_S8192x64_1_0_0_1_n_n_0 (i : S8192x64.Idx) (q : dot_S8192x8192_S8192x64_S8192x64_1_0_0_1_n_n.contr.Idx) :
    (dot_S8192x8192_S8192x64_S8192x64_1_0_0_1_n_n.lhsIdx i q 0).val = (i 0).val := by
  unfold DotDims.lhsIdx
  rw [dif_neg (show ¬(0 : Fin S8192x8192.rank) ∈ dot_S8192x8192_S8192x64_S8192x64_1_0_0_1_n_n.lhsBatch by decide),
    dif_pos (show (0 : Fin S8192x8192.rank) ∈ dot_S8192x8192_S8192x64_S8192x64_1_0_0_1_n_n.lhsNonContracting by decide)]
  rfl

/-- The left operand's column coordinate is the contraction position. -/
theorem lhs_dot_S8192x8192_S8192x64_S8192x64_1_0_0_1_n_n_1 (i : S8192x64.Idx) (q : dot_S8192x8192_S8192x64_S8192x64_1_0_0_1_n_n.contr.Idx) :
    (dot_S8192x8192_S8192x64_S8192x64_1_0_0_1_n_n.lhsIdx i q 1).val = (q ⟨0, by decide⟩).val :=
  dot_S8192x8192_S8192x64_S8192x64_1_0_0_1_n_n.lhsIdx_val_of_single rfl i q

/-- The right operand's row coordinate is the contraction position. -/
theorem rhs_dot_S8192x8192_S8192x64_S8192x64_1_0_0_1_n_n_0 (i : S8192x64.Idx) (q : dot_S8192x8192_S8192x64_S8192x64_1_0_0_1_n_n.contr.Idx) :
    (dot_S8192x8192_S8192x64_S8192x64_1_0_0_1_n_n.rhsIdx i q 0).val = (q ⟨0, by decide⟩).val :=
  dot_S8192x8192_S8192x64_S8192x64_1_0_0_1_n_n.rhsIdx_val_of_single rfl i q

/-- The right operand's column coordinate is the result's column. -/
theorem rhs_dot_S8192x8192_S8192x64_S8192x64_1_0_0_1_n_n_1 (i : S8192x64.Idx) (q : dot_S8192x8192_S8192x64_S8192x64_1_0_0_1_n_n.contr.Idx) :
    (dot_S8192x8192_S8192x64_S8192x64_1_0_0_1_n_n.rhsIdx i q 1).val = (i 1).val := by
  unfold DotDims.rhsIdx
  rw [dif_neg (show ¬(1 : Fin S8192x64.rank) ∈ dot_S8192x8192_S8192x64_S8192x64_1_0_0_1_n_n.rhsBatch by decide),
    dif_pos (show (1 : Fin S8192x64.rank) ∈ dot_S8192x8192_S8192x64_S8192x64_1_0_0_1_n_n.rhsNonContracting by decide)]
  rfl

/-- The product of an 8192×8192 array with an 8192×64 array, read at (r, c): the sum over the 8192 shared coordinates of the entries' products. -/
theorem weightsDot_apply (X : FVec Ideal S8192x8192 .f32) (Y : FVec Ideal S8192x64 .f32) (r : Fin 8192) (c : Fin 64) :
    Host.dotGeneral dot_S8192x8192_S8192x64_S8192x64_1_0_0_1_n_n none X Y (ix2 r c) = ∑ k : Fin 8192, X (ix2 r k) * Y (ix2 k c) := by
  simp only [Host.dotGeneral]
  rw [Ideal.dotGeneral_apply, ← Equiv.sum_comp (contrEquiv1 dot_S8192x8192_S8192x64_S8192x64_1_0_0_1_n_n 8192 rfl rfl).symm]
  refine Finset.sum_congr rfl fun k _ => ?_
  have hk := contrEquiv1_symm_val dot_S8192x8192_S8192x64_S8192x64_1_0_0_1_n_n 8192 rfl rfl k
  have el : dot_S8192x8192_S8192x64_S8192x64_1_0_0_1_n_n.lhsIdx (ix2 r c) ((contrEquiv1 dot_S8192x8192_S8192x64_S8192x64_1_0_0_1_n_n 8192 rfl rfl).symm k) = ix2 r k :=
    funext fun a => Fin.ext (by
      match a with
      | ⟨0, _⟩ => exact lhs_dot_S8192x8192_S8192x64_S8192x64_1_0_0_1_n_n_0 _ _
      | ⟨1, _⟩ => exact (lhs_dot_S8192x8192_S8192x64_S8192x64_1_0_0_1_n_n_1 _ _).trans hk)
  have er : dot_S8192x8192_S8192x64_S8192x64_1_0_0_1_n_n.rhsIdx (ix2 r c) ((contrEquiv1 dot_S8192x8192_S8192x64_S8192x64_1_0_0_1_n_n 8192 rfl rfl).symm k) = ix2 k c :=
    funext fun a => Fin.ext (by
      match a with
      | ⟨0, _⟩ => exact (rhs_dot_S8192x8192_S8192x64_S8192x64_1_0_0_1_n_n_0 _ _).trans hk
      | ⟨1, _⟩ => exact rhs_dot_S8192x8192_S8192x64_S8192x64_1_0_0_1_n_n_1 _ _)
  rw [el, er]

/-! ## The logits -/

/-- Entry (r, k) of the logits Q·Kᵀ is the logit of Q's row r against key row k: the transposed keys read at (d, k)
    are K at (k, d). -/
theorem logitsR_apply (Q K : Mat) (r k : Fin 8192) :
    logitsR Q K (ix2 r k) = logitRow (fun d => Q (ix2 r d)) K k := by
  unfold logitsR logitRow
  rw [logitsDot_apply]
  refine Finset.sum_congr rfl fun d _ => ?_
  rw [transpose_ix2_apply]

/-! ## A column kept beside its rows: [8192] → [8192, 1] → [8192, 8192] -/

/-- A column of 8192 entries set beside a unit axis reads, at (r, 0), its entry r. -/
theorem colUnit_apply {α : Type} (x : S8192.Idx → α) (r : Fin 8192) :
    broadcastInDim S8192x1 ![0] bcast_S8192_S8192x1_0 x (ix2 r (0 : Fin 1)) = x (ix1 r) := by
  refine broadcastInDim_apply ![0] bcast_S8192_S8192x1_0 x (ix2 r (0 : Fin 1)) (ix1 r) ?_
  intro a
  match a with
  | ⟨0, _⟩ =>
    show r.val = if (8192 : ℕ) = 1 then 0 else r.val
    rw [if_neg (by decide)]

/-- An 8192×1 column spread along 8192 columns reads, at (r, k), its entry (r, 0). -/
theorem colSpread_apply {α : Type} (x : S8192x1.Idx → α) (r k : Fin 8192) :
    broadcastInDim S8192x8192 ![0, 1] bcast_S8192x1_S8192x8192_0_1 x (ix2 r k) = x (ix2 r (0 : Fin 1)) := by
  refine broadcastInDim_apply ![0, 1] bcast_S8192x1_S8192x8192_0_1 x (ix2 r k) (ix2 r (0 : Fin 1)) ?_
  intro a
  match a with
  | ⟨0, _⟩ =>
    show r.val = if (8192 : ℕ) = 1 then 0 else r.val
    rw [if_neg (by decide)]
  | ⟨1, _⟩ =>
    show (0 : ℕ) = if (1 : ℕ) = 1 then 0 else k.val
    rw [if_pos rfl]

/-! ## The exponentials -/

/-- Entry (r, k) of the exponentials: exp of the entry less the largest entry of its row (the maximum with minus
    infinity changes nothing). -/
theorem expR_apply (s : FVec Ideal S8192x8192 .f32) (r k : Fin 8192) :
    expR s (ix2 r k) = Ideal.exp (s (ix2 r k) - Finset.univ.sup (fun k' : Fin 8192 => s (ix2 r k'))) := by
  have e0 : ∀ (x : FVec Ideal S8192x8192 .f32) (i : S8192x8192.Idx), Host.exp x i = Ideal.exp (x i) := fun _ _ => rfl
  unfold expR
  rw [e0, subf_apply, colSpread_apply, colUnit_apply, maximumf_apply, broadcastInDim_scalar_apply, constant_apply,
    hostRowMax_apply, ofBits_negInf_f32, max_bot_left]

/-! ## The attention -/

/-- Entry (r, c) of the reference's attention: the sum over j of (the sum over the key rows k of the softmax weight of
    k for Q's row r, divided by the sum of that row's weights, times E at (k, j)) times W at (j, c). -/
theorem attnR_apply (Q K E : Mat) (W : Wt) (r : Fin 8192) (c : Fin 64) :
    attnR Q K E W (ix2 r c)
      = ∑ j : Fin 64, (∑ k : Fin 8192, Ideal.div (wgt (fun d => Q (ix2 r d)) K k) (∑ k' : Fin 8192, wgt (fun d => Q (ix2 r d)) K k') * E (ix2 k j)) * W (ix2 j c) := by
  have hw : ∀ k : Fin 8192, expR (logitsR Q K) (ix2 r k) = wgt (fun d => Q (ix2 r d)) K k := by
    intro k
    rw [expR_apply]
    unfold wgt rowMax
    simp only [logitsR_apply]
  unfold attnR
  rw [mm_apply]
  refine Finset.sum_congr rfl fun j _ => ?_
  rw [weightsDot_apply]
  refine congrArg (· * W (ix2 j c)) (Finset.sum_congr rfl fun k _ => ?_)
  rw [hostDivf_apply, colSpread_apply, colUnit_apply, hostRowSum_apply]
  simp only [hw]

end Cert.BGCF

end
-- ==== Proof.AttnLaw.lean ====
/-
  The two spellings of attention agree on real arrays.

  For a query row q, let w_k = exp(q·K[k,:] − max_k' q·K[k',:]) be the unnormalised softmax weights and L = ∑_k w_k.
  The reference normalises first: its entry (r, c) is ∑_j (∑_k (w_k / L) · E[k,j]) · W[j,c]. The kernel sums first and
  divides once: (∑_k w_k · (E·W)[k,c]) / L. When Q, K, E and W hold real numbers only, every logit is a real number,
  the row maximum is one of the logits (the index set is nonempty) and hence real, every weight is a positive real, L is
  a positive real, and dividing by L is multiplying by the real 1/L. Both sides are then real, and they are equal by
  exchanging the two finite sums and pulling the common factor 1/L out.
-/
import proofs.«420976_j38130719654352_3_alg».proof.Proof.Spec
import proofs.«420976_j38130719654352_3_alg».proof.Proof.LibERealBatchNorm
import proofs.«420976_j38130719654352_3_alg».proof.Proof.MmAt
import proofs.«420976_j38130719654352_3_alg».proof.Proof.AttnRefAt
import Mathlib.Analysis.Complex.Exponential
import Mathlib.Data.Finset.Lattice.Fold
import Mathlib.Algebra.BigOperators.Ring.Finset
import Mathlib.Algebra.Order.BigOperators.Group.Finset
import Mathlib.Tactic.Ring

noncomputable section

namespace Cert.BGCF

open Idealize.ShloMosaic Idealize.ShloMosaic.ValueIdx Cert.ReferenceIdeal Cert.ReferenceIdeal.Facts₀
open scoped BigOperators

/-- Exchange of the two sums: normalising each weight before summing against the values and then against a column of W
    is summing the weights against the rows of the product and normalising once. A real identity over arbitrary finite
    index sets; it holds for every real `L` (the reciprocal is only ever a common factor). -/
theorem attn_sum_real {ι κ : Type*} [Fintype ι] [Fintype κ] (w : ι → ℝ) (E : ι → κ → ℝ) (W : κ → ℝ) (L : ℝ) :
    ∑ j, (∑ k, w k * (1 / L) * E k j) * W j = (∑ k, w k * ∑ j, E k j * W j) * (1 / L) := by
  simp_rw [Finset.mul_sum, Finset.sum_mul]
  rw [Finset.sum_comm]
  exact Finset.sum_congr rfl fun k _ => Finset.sum_congr rfl fun j _ => by ring

/-- The logit of a real query row against a row of a real key array is the real dot product. -/
theorem logitRow_isReal (q : Fin 64 → EReal) (hq : ∀ d, ∃ x : ℝ, q d = (x : EReal)) (K : Mat) (hK : IsRealV K)
    (k : Fin 8192) : ∃ x : ℝ, logitRow q K k = (x : EReal) := by
  choose q' hq' using hq
  choose K' hK' using hK
  refine ⟨∑ d : Fin 64, q' d * K' (ix2 k d), ?_⟩
  show (∑ d : Fin 64, q d * K (ix2 k d)) = _
  simp_rw [hq', hK', ← EReal.coe_mul]
  exact Cert.ERealBN.coe_sum _ _

/-- The largest logit of a real query row is a real number: it is one of the finitely many logits, the index set
    being nonempty. -/
theorem rowMax_isReal (q : Fin 64 → EReal) (hq : ∀ d, ∃ x : ℝ, q d = (x : EReal)) (K : Mat) (hK : IsRealV K) :
    ∃ m : ℝ, rowMax q K = (m : EReal) := by
  obtain ⟨k, -, hk⟩ := Finset.exists_mem_eq_sup (Finset.univ : Finset (Fin 8192)) Finset.univ_nonempty (logitRow q K)
  obtain ⟨x, hx⟩ := logitRow_isReal q hq K hK k
  refine ⟨x, ?_⟩
  show Finset.univ.sup (logitRow q K) = _
  rw [hk, hx]

/-- Every unnormalised softmax weight of a real query row is a positive real number. -/
theorem wgt_pos_real (q : Fin 64 → EReal) (hq : ∀ d, ∃ x : ℝ, q d = (x : EReal)) (K : Mat) (hK : IsRealV K) :
    ∃ w : Fin 8192 → ℝ, (∀ k, 0 < w k) ∧ ∀ k, wgt q K k = ((w k : ℝ) : EReal) := by
  obtain ⟨m, hm⟩ := rowMax_isReal q hq K hK
  choose l hl using logitRow_isReal q hq K hK
  refine ⟨fun k => Real.exp (l k - m), fun k => Real.exp_pos _, fun k => ?_⟩
  show Ideal.exp (logitRow q K k - rowMax q K) = _
  rw [hm, hl, ← EReal.coe_sub, Ideal.exp_coe]

/-- On real arrays the two spellings of attention agree: normalising the softmax weights, multiplying by the values E
    and then by W, is dividing the weighted sum of the rows of E·W by the sum of the weights. The weights are positive
    reals, so their sum is a nonzero real and the division is the product with its reciprocal; the rest is the exchange
    of two finite sums. -/
theorem attnR_eq_attnK (Q K E : Mat) (W : Wt) (hQ : IsRealV Q) (hK : IsRealV K) (hE : IsRealV E) (hW : IsRealV W) :
    attnR Q K E W = attnK Q K (mm E W) := by
  funext i
  obtain ⟨r, c, rfl⟩ : ∃ (r : Fin 8192) (c : Fin 64), i = ix2 r c := ⟨i 0, i 1, eq_ix2 i⟩
  rw [attnR_apply, attnK_apply]
  show _ = Ideal.div (∑ k : Fin 8192, wgt (fun d => Q (ix2 r d)) K k * mm E W (ix2 k c))
    (∑ k : Fin 8192, wgt (fun d => Q (ix2 r d)) K k)
  simp_rw [mm_apply]
  obtain ⟨w, hwpos, hw⟩ := wgt_pos_real (fun d => Q (ix2 r d)) (fun d => hQ _) K hK
  choose E' hE' using hE
  choose W' hW' using hW
  have hL : (∑ k : Fin 8192, w k) ≠ 0 := (Finset.sum_pos (fun k _ => hwpos k) Finset.univ_nonempty).ne'
  simp_rw [hw, hE', hW', Cert.ERealBN.coe_sum, Ideal.div_coe hL, ← EReal.coe_mul, Cert.ERealBN.coe_sum,
    ← EReal.coe_mul, Cert.ERealBN.coe_sum, ← EReal.coe_mul]
  exact congrArg (fun x : ℝ => (x : EReal)) (attn_sum_real w (fun k j => E' (ix2 k j)) (fun j => W' (ix2 j c)) _)

end Cert.BGCF

end
-- ==== Proof.Bridge.lean ====
/-
  The two programs compute the same arrays when every float argument is real.

  Each of the reference's eight sparse aggregations is of a product X·W; by linearity it is the aggregation of X
  followed by the product with W, which is what the kernel computes. The attention then agrees by the softmax identity
  (normalise the weights first, or divide the weighted sum at the end), and the mean convolutions agree term by term.
-/
import proofs.«420976_j38130719654352_3_alg».proof.Proof.Values
import proofs.«420976_j38130719654352_3_alg».proof.Proof.MmAt
import proofs.«420976_j38130719654352_3_alg».proof.Proof.SpmmLaw
import proofs.«420976_j38130719654352_3_alg».proof.Proof.AttnLaw

noncomputable section

namespace Cert.BGCF

open Idealize.ShloMosaic Idealize.ShloMosaic.ValueIdx Cert.ReferenceIdeal Cert.ReferenceIdeal.Facts₀

namespace Args

variable (A : Args) (h : A.Finite)
include h

/-- The user branch's attention: queries A·item·W, keys Aᵀ·user·W, values item·W·W on both sides. -/
theorem rH1u_eq : A.rH1u = A.kH1u := by
  unfold rH1u kH1u S1 S2
  rw [spmm_mm A.adjVal A.adjCol A.adjRow A.item A.wAu h.adjVal h.item h.wAu,
    spmm_mm A.adjVal A.adjRow A.adjCol A.user A.wAu h.adjVal h.user h.wAu]
  exact attnR_eq_attnK _ _ _ _ (mm_real (spmm_real _ _ h.adjVal h.item) h.wAu)
    (mm_real (spmm_real _ _ h.adjVal h.user) h.wAu) (mm_real h.item h.wAu) h.wAu

/-- The item branch's attention: queries Aᵀ·user·W, keys A·item·W, values user·W·W on both sides. -/
theorem rH1i_eq : A.rH1i = A.kH1i := by
  unfold rH1i kH1i S1 S2
  rw [spmm_mm A.adjVal A.adjRow A.adjCol A.user A.wAi h.adjVal h.user h.wAi,
    spmm_mm A.adjVal A.adjCol A.adjRow A.item A.wAi h.adjVal h.item h.wAi]
  exact attnR_eq_attnK _ _ _ _ (mm_real (spmm_real _ _ h.adjVal h.user) h.wAi)
    (mm_real (spmm_real _ _ h.adjVal h.item) h.wAi) (mm_real h.user h.wAi) h.wAi

/-- The sampled graph's mean convolution, user side. -/
theorem rH2u_eq : A.rH2u = A.kH2u := by
  unfold rH2u kH2u S1
  rw [spmm_mm A.adjVal A.adjCol A.adjRow A.item A.wMu h.adjVal h.item h.wMu]

/-- The sampled graph's mean convolution, item side. -/
theorem rH2i_eq : A.rH2i = A.kH2i := by
  unfold rH2i kH2i S2
  rw [spmm_mm A.adjVal A.adjRow A.adjCol A.user A.wMi h.adjVal h.user h.wMi]

/-- The observed graph's mean convolution, user side. -/
theorem rHou_eq : A.rHou = A.kHou := by
  unfold rHou kHou S3
  rw [spmm_mm A.obsVal A.obsCol A.obsRow A.item A.wOu h.obsVal h.item h.wOu]

/-- The observed graph's mean convolution, item side. -/
theorem rHoi_eq : A.rHoi = A.kHoi := by
  unfold rHoi kHoi S4
  rw [spmm_mm A.obsVal A.obsRow A.obsCol A.user A.wOi h.obsVal h.user h.wOi]

/-- The three results before normalisation agree. -/
theorem rOut0_eq : A.rOut0 = A.kOut0 := by
  unfold rOut0 kOut0; rw [rH1u_eq A h, rH2u_eq A h, rHou_eq A h]
theorem rOut1_eq : A.rOut1 = A.kOut1 := by
  unfold rOut1 kOut1; rw [rH1i_eq A h, rH2i_eq A h, rHoi_eq A h]
theorem rOut2_eq : A.rOut2 = A.kOut2 := by
  unfold rOut2 kOut2; rw [rH1i_eq A h, rH2i_eq A h, rHoi_eq A h]

end Args

end Cert.BGCF

end
-- ==== Proof.lean ====
/-
  The certificate: the kernel (a fused softmax-attention pallas_call, used twice, among host operations) against its
  jnp reference, over the extended reals, under "every float input is finite".

  The three frames are the generated ones (the reference's is its generated run with the results dropped), and the
  idealization rewrote nothing. For the value: the kernel's run ends with each result at the shared normalisation of
  `kOut0`, `kOut1`, `kOut2` of its arguments (the two regions' output arrays are the whole-array attention of their
  input arrays, the host operations around them read back one by one); the reference's run ends at the same
  normalisation of `rOut0`, `rOut1`, `rOut2`; and on real arguments these agree: the reference aggregates products
  X·W over the graph's edges where the kernel aggregates X and multiplies afterwards, which is the same by linearity,
  and the kernel divides the attention's weighted sum by the sum of the weights where the reference normalises the
  weights first.
-/
import proofs.«420976_j38130719654352_3_alg».proof.Defs
import proofs.«420976_j38130719654352_3_alg».proof.Proof.Gen.Kernel
import proofs.«420976_j38130719654352_3_alg».proof.Proof.Gen.Kernel.Frame
import proofs.«420976_j38130719654352_3_alg».proof.Proof.Gen.KernelIdeal
import proofs.«420976_j38130719654352_3_alg».proof.Proof.Gen.KernelIdeal.Frame
import proofs.«420976_j38130719654352_3_alg».proof.Proof.Gen.ReferenceIdeal
import proofs.«420976_j38130719654352_3_alg».proof.Proof.Gen.ReferenceIdeal.Run
import proofs.«420976_j38130719654352_3_alg».proof.Proof.Gen.Pre_finite_inputs
import proofs.«420976_j38130719654352_3_alg».proof.Proof.KernelRun
import proofs.«420976_j38130719654352_3_alg».proof.Proof.KernelValue
import proofs.«420976_j38130719654352_3_alg».proof.Proof.RefValue
import proofs.«420976_j38130719654352_3_alg».proof.Proof.Finite
import proofs.«420976_j38130719654352_3_alg».proof.Proof.Bridge
import Idealize.ShloMosaic.Adequacy
import Idealize.ShloMosaic.Init

noncomputable section

namespace Cert.Proof

open Idealize.ShloMosaic Idealize.SL.Sem Cert.BGCF

theorem frame_k : Cert.frame_Kernel := fun m ρ _ => Cert.Kernel.Gen.frame m ρ

theorem frame_ki : Cert.frame_KernelIdeal := fun m ρ _ => Cert.KernelIdeal.Gen.frame m ρ

/-- The reference's frame: its generated run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Memories that agree on the 24 arguments give the two programs the same argument record. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    rArgs m' c = kArgs m c := by
  obtain ⟨e0, e1, e2, e3, e4, e5, e6, e7, e8, e9, e10, e11, e12, e13, e14, e15, e16, e17, e18, e19, e20, e21, e22, e23⟩ := h
  unfold rArgs kArgs
  rw [e0, e1, e2, e3, e4, e5, e6, e7, e8, e9, e10, e11, e12, e13, e14, e15, e16, e17, e18, e19, e20, e21, e22, e23]

/-- Under the precondition the kernel's argument record is real. -/
theorem args_finite
    (m : (ℓ : Loc Cert.KernelIdeal.nD Cert.KernelIdeal.τ Cert.KernelIdeal.sig) → Buf (Elt Ideal) ℓ)
    (h : Cert.Pre_KernelIdeal m) (c : Dev Cert.KernelIdeal.nD) : (kArgs m c).Finite := by
  obtain ⟨f0, f1, f2, f3, f4, f5, f6, f7, f8, f9, f10, f11, f12, f13⟩ := finite_of_pre m h c
  exact ⟨f0, f1, f2, f3, f4, f5, f6, f7, f8, f9, f10, f11, f12, f13⟩

/-- Both idealized programs run, and from memories that agree on the arguments they end with equal results. -/
theorem algebraic : Cert.algebraic_KernelIdeal_ReferenceIdeal := by
  intro m g m' g' hpre hagree
  refine ⟨fun c => p5norm (kArgs m c).kOut0, fun c => p5norm (kArgs m c).kOut1, fun c => p5norm (kArgs m c).kOut2, ?_, ?_⟩
  · refine (θ_run Cert.KernelIdeal.defs _ _).mono (fun r h c => ?_) (Cert.KernelIdeal.ResultRun.run (F := Ideal) m g)
    obtain ⟨h0, h1, h2, hargs⟩ := h c
    exact ⟨h0.trans (W4_v137 m g c), h1.trans (W4_v148 m g c), h2.trans (W4_v159 m g c), hargs⟩
  · refine (θ_run Cert.ReferenceIdeal.defs _ _).mono (fun r h c => ?_) (Cert.ReferenceIdeal.Value.run (F := Ideal) m' g')
    obtain ⟨h0, h1, h2, hargs⟩ := h c
    have hA : rArgs m' c = kArgs m c := args_agree m m' c (hagree c)
    have hfin : (kArgs m c).Finite := args_finite m hpre c
    refine ⟨h0.trans ?_, h1.trans ?_, h2.trans ?_, hargs⟩
    · show p5norm (Cert.ReferenceIdeal.Value.res_main_v184 (F := Ideal) (StableHlo.launchContents m' c)) = p5norm (kArgs m c).kOut0
      rw [ref_out0, hA, Args.rOut0_eq _ hfin]
    · show p5norm (Cert.ReferenceIdeal.Value.res_main_v193 (F := Ideal) (StableHlo.launchContents m' c)) = p5norm (kArgs m c).kOut1
      rw [ref_out1, hA, Args.rOut1_eq _ hfin]
    · show p5norm (Cert.ReferenceIdeal.Value.res_main_v202 (F := Ideal) (StableHlo.launchContents m' c)) = p5norm (kArgs m c).kOut2
      rw [ref_out2, hA, Args.rOut2_eq _ hfin]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
